-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 93
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  shapeCasts_S1x128_S128 : S1x128.ShapeCasts S128
  bcast_S_S128 : S_.BroadcastsInDim S128 (![] : Fin 0 → Fin S128.rank)
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_14 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_call3_cst : Ref sig .tc := ⟨.hbm, 116, rfl⟩
abbrev main_call3_v0 : Ref sig .tc := ⟨.hbm, 117, rfl⟩
abbrev main_v68 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Stages.lean ====
/-
  The mathematics both programs compute, stated once.

  A graph-convolution block over N = 100000 nodes and E = 1600000 weighted edges, C = 128 channels.
  Every node gets a self loop of weight 1, so the edge lists have E + N = 1700000 entries:
  `srcIdx` / `dstIdx` (the edge's two ends, then every node once) and `edgeW` (the weights, then ones).
  `degree` is the weighted in-degree (a scatter-add of the weights over the destinations), `invSqrtDeg` its
  inverse square root where the degree is positive and 0 elsewhere, `edgeNorm` the symmetric normalisation
  d(src)^(-1/2) · w · d(dst)^(-1/2) of every edge, and `aggregate h` the scatter-add over destinations of the
  source's row of `h` scaled by the edge's normalisation.  Negative indices count from the end (`wrapIdx`).

  After the aggregation both programs normalise every column by its batch statistics and clamp at zero.  They
  differ only in how the variance of a column is formed: the mean of the squares minus the squared mean
  (`kerBN`), against the mean of the squared deviations from the mean (`refBN`).
-/
import proofs.«171873_j11338713662112_1_alg».proof.KernelIdeal
import Idealize.ShloMosaic.PureOps.Ideal
import Idealize.ShloMosaic.Lib.ValueIdx

noncomputable section

namespace Cert.Stages

open Idealize.ShloMosaic Cert.KernelIdeal Cert.KernelIdeal.Facts₀ Cert.KernelIdeal.Facts ValueIdx

variable {F : FTy → Type} [FloatOps F] [Cert.KernelIdeal.Facts]

/-! ## The edge lists with self loops -/

/-- The edges' source nodes (row 0 of the edge table), followed by 0, 1, …, N-1 for the self loops. -/
def srcIdx (ei : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] ei slices_S2x1600000_S1x1600000_0_0) shapeCasts_S1x1600000_S1600000⟩,
      ⟨S100000, iotaInDim S100000 32 0⟩]
    concatenates_S1600000_S100000_S1700000_d0

/-- The edges' destination nodes (row 1 of the edge table), followed by 0, 1, …, N-1 for the self loops. -/
def dstIdx (ei : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] ei slices_S2x1600000_S1x1600000_1_0) shapeCasts_S1x1600000_S1600000⟩,
      ⟨S100000, iotaInDim S100000 32 0⟩]
    concatenates_S1600000_S100000_S1700000_d0

/-- The edge weights followed by a weight 1 per self loop. -/
def edgeW (ew : (⟨S1600000, .f32⟩ : BufTy).Contents (Elt F)) : (⟨S1700000, .f32⟩ : BufTy).Contents (Elt F) :=
  concatenate S1700000 0
    [⟨S1600000, ew⟩, ⟨S100000, broadcastInDim S100000 ![] bcast_S_S100000 (constant S_ .f32 0x3F800000#32)⟩]
    concatenates_S1600000_S100000_S1700000_d0

/-- An index read the numpy way: a negative one counts from the end of the N nodes. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- An index list as the one-column table a gather or scatter takes. -/
def idxCol (v : (⟨S1700000, .i32⟩ : BufTy).Contents (Elt F)) : (⟨S1700000x1, .i32⟩ : BufTy).Contents (Elt F) :=
  broadcastInDim S1700000x1 ![0] bcast_S1700000_S1700000x1_0 v

/-! ## The symmetric normalisation -/

def zeros1 : (⟨S100000, .f32⟩ : BufTy).Contents (Elt F) :=
  broadcastInDim S100000 ![] bcast_S_S100000 (constant S_ .f32 0x00000000#32)

/-- The weighted in-degree of every node, self loop included. -/
def degree (ei : (⟨S2x1600000, .i32⟩ : BufTy).Contents (Elt F)) (ew : (⟨S1600000, .f32⟩ : BufTy).Contents (Elt F)) :
    (⟨S100000, .f32⟩ : BufTy).Contents (Elt F) :=
  Host.scatterAdd scatter_S100000_S1700000x1_S1700000_n_0_0_1 zeros1 (idxCol (dstIdx ei)) (edgeW ew)

/-- The degree where it is positive, 1 elsewhere. -/
def degSafe (d : (⟨S100000, .f32⟩ : BufTy).Contents (Elt F)) : (⟨S100000, .f32⟩ : BufTy).Contents (Elt F) :=
  select (cmpf .ogt d zeros1) d (broadcastInDim S100000 ![] bcast_S_S100000 (constant S_ .f32 0x3F800000#32))

/-- d^(-1/2) where the degree d is positive, 0 elsewhere. -/
def invSqrtOf (d : (⟨S100000, .f32⟩ : BufTy).Contents (Elt F)) : (⟨S100000, .f32⟩ : BufTy).Contents (Elt F) :=
  select (cmpf .ogt d zeros1) (Host.rsqrt (degSafe d)) zeros1

def invSqrtDeg (ei : (⟨S2x1600000, .i32⟩ : BufTy).Contents (Elt F)) (ew : (⟨S1600000, .f32⟩ : BufTy).Contents (Elt F)) :
    (⟨S100000, .f32⟩ : BufTy).Contents (Elt F) :=
  invSqrtOf (degree ei ew)

/-- d(src)^(-1/2) · w · d(dst)^(-1/2), edge by edge. -/
def edgeNorm (ei : (⟨S2x1600000, .i32⟩ : BufTy).Contents (Elt F)) (ew : (⟨S1600000, .f32⟩ : BufTy).Contents (Elt F)) :
    (⟨S1700000, .f32⟩ : BufTy).Contents (Elt F) :=
  mulf (mulf (Host.gather gather_S100000_S1700000x1_S1700000_n_0_n_n_0_1_1 (invSqrtDeg ei ew) (idxCol (wrapIdx (srcIdx ei)))) (edgeW ew))
    (Host.gather gather_S100000_S1700000x1_S1700000_n_0_n_n_0_1_1 (invSqrtDeg ei ew) (idxCol (wrapIdx (dstIdx ei))))

/-! ## The aggregation -/

/-- Every node's sum, over the edges that end at it, of the source's row of `h` scaled by the edge's normalisation. -/
def aggregate (ei : (⟨S2x1600000, .i32⟩ : BufTy).Contents (Elt F)) (ew : (⟨S1600000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (idxCol (dstIdx ei))
    (mulf (Host.gather gather_S100000x128_S1700000x1_S1700000x128_1_0_n_n_0_1_1128 h (idxCol (wrapIdx (srcIdx ei))))
      (broadcastInDim S1700000x128 ![0, 1] bcast_S1700000x1_S1700000x128_0_1
        (broadcastInDim S1700000x1 ![0] bcast_S1700000_S1700000x1_0 (edgeNorm ei ew))))

/-! ## Batch normalisation and the clamp, index by index on the extended reals -/

/-- The row count as both programs spell it: the single-precision word of 100000. -/
def nRows : EReal := Ideal.ofBits .f32 0x47C35000#32
/-- The stabiliser added to the variance: the single-precision word nearest 1e-5. -/
def epsBN : EReal := Ideal.ofBits .f32 0x3727C5AC#32

/-- The sum of a column over all rows. -/
def colSum (A : S100000x128.Idx → EReal) (j : Fin 128) : EReal := ∑ r : Fin 100000, A (ix2 r j)
/-- The sum of a column's squares over all rows. -/
def colSumSq (A : S100000x128.Idx → EReal) (j : Fin 128) : EReal := ∑ r : Fin 100000, A (ix2 r j) * A (ix2 r j)
/-- The mean of a column. -/
def colMean (A : S100000x128.Idx → EReal) (j : Fin 128) : EReal := Ideal.div (colSum A j) nRows

/-- Normalised with the variance formed as E[a²] − (E[a])². -/
def kerBN (A : S100000x128.Idx → EReal) (γ β : S128.Idx → EReal) (r : Fin 100000) (j : Fin 128) : EReal :=
  max ((A (ix2 r j) - colMean A j)
        * Ideal.rsqrt (Ideal.div (colSumSq A j) nRows - colMean A j * colMean A j + epsBN)
        * γ (ix1 j) + β (ix1 j)) 0

/-- Normalised with the variance formed as E[(a − E[a])²]. -/
def refBN (A : S100000x128.Idx → EReal) (γ β : S128.Idx → EReal) (r : Fin 100000) (j : Fin 128) : EReal :=
  max ((A (ix2 r j) - colMean A j)
        * Ideal.rsqrt (Ideal.div (∑ i : Fin 100000, (A (ix2 i j) - colMean A j) * (A (ix2 i j) - colMean A j)) nRows + epsBN)
        * γ (ix1 j) + β (ix1 j)) 0

end Cert.Stages

end
-- ==== Proof.KernelHost.lean ====
import proofs.«171873_j11338713662112_1_alg».proof.Proof.Gen.KernelIdeal.Frame
import proofs.«171873_j11338713662112_1_alg».proof.Proof.Stages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

/-!
  What the host operations between the kernel regions compute.

  The program's buffers at each boundary of its main function are a fold: the launch memory, then each stretch of
  host operations applied in order, then each region's arrays replaced by what the region leaves.  Here the fold is
  walked at the buffers the regions read.  Each stretch is first read over arbitrary contents at its start, as the
  stage of the shared mathematics it computes (the edge lists with self loops, the degree, its inverse square root,
  the edge normalisation, the aggregation); the walk from the launch then chains the stretches, a buffer that a
  stretch or a region does not write keeping its contents.  At the extended reals the last stretch is read at a
  column: a mean, an inverse standard deviation, and the launched scale and shift.
-/

set_option maxRecDepth 16384

noncomputable section

namespace Cert.KernelIdeal.HostVal

open Cert.KernelIdeal Cert.KernelIdeal.Gen Idealize.ShloMosaic Idealize.ShloMosaic.TcCoe Idealize.SL.Sem ValueIdx
open Idealize.ShloMosaic.Pipeline (Dat Cfg Window)
open Idealize.ShloMosaic.StableHlo

variable {F : FTy → Type} [FloatOps F]

/-- A buffer that none of a stretch's operations writes keeps its contents over the stretch. -/
local macro "keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

section Stretch
variable (W : Valuation τ sig (Elt F))

/-! ### Each stretch of host operations, over any contents W at its start -/

/-- The first stretch: the two edge lists with the self loops appended … -/
private theorem s0_v5 : after (hostOps0 (F := F)) W (Proc.devRef .tc main_v5) = Cert.Stages.srcIdx (W (Proc.devRef .tc main_arg1)) := by
  after_results; rfl
private theorem s0_v6 : after (hostOps0 (F := F)) W (Proc.devRef .tc main_v6) = Cert.Stages.dstIdx (W (Proc.devRef .tc main_arg1)) := by
  after_results; rfl
/-- … the weights with a one per self loop … -/
private theorem s0_v8 : after (hostOps0 (F := F)) W (Proc.devRef .tc main_v8) = Cert.Stages.edgeW (W (Proc.devRef .tc main_arg2)) := by
  after_results; rfl
/-- … the weighted in-degree … -/
private theorem s0_v11 : after (hostOps0 (F := F)) W (Proc.devRef .tc main_v11)
    = Cert.Stages.degree (W (Proc.devRef .tc main_arg1)) (W (Proc.devRef .tc main_arg2)) := by
  after_results; rfl
/-- … where it is positive … -/
private theorem s0_v13 : after (hostOps0 (F := F)) W (Proc.devRef .tc main_v13)
    = cmpf .ogt (Cert.Stages.degree (W (Proc.devRef .tc main_arg1)) (W (Proc.devRef .tc main_arg2))) Cert.Stages.zeros1 := by
  after_results; rfl
/-- … and the constant one. -/
private theorem s0_cst2 : after (hostOps0 (F := F)) W (Proc.devRef .tc main_cst_2) = constant (F := F) S_ .f32 0x3F800000#32 := by
  after_results

/-- The second stretch: the degree where positive, one elsewhere. -/
private theorem s1_v14 (d : (⟨S100000, .f32⟩ : BufTy).Contents (Elt F))
    (h11 : W (Proc.devRef .tc main_v11) = d) (h13 : W (Proc.devRef .tc main_v13) = cmpf .ogt d Cert.Stages.zeros1)
    (h2 : W (Proc.devRef .tc main_cst_2) = constant (F := F) S_ .f32 0x3F800000#32) :
    after (hostOps0_1 (F := F)) W (Proc.devRef .tc main_v14) = Cert.Stages.degSafe d := by
  after_results
  show select (W (Proc.devRef .tc main_v13)) (W (Proc.devRef .tc main_v11))
      (broadcastInDim S100000 ![] Facts₀.bcast_S_S100000 (W (Proc.devRef .tc main_cst_2))) = _
  rw [h11, h13, h2]; rfl

/-- The third stretch: the positivity mask again, the inverse square root of the safe degree, the constant zero. -/
private theorem s2_v16 (d : (⟨S100000, .f32⟩ : BufTy).Contents (Elt F)) (h11 : W (Proc.devRef .tc main_v11) = d) :
    after (hostOps0_2 (F := F)) W (Proc.devRef .tc main_v16) = cmpf .ogt d Cert.Stages.zeros1 := by
  after_results; rw [h11]; rfl
private theorem s2_v17 (e : (⟨S100000, .f32⟩ : BufTy).Contents (Elt F)) (h14 : W (Proc.devRef .tc main_v14) = e) :
    after (hostOps0_2 (F := F)) W (Proc.devRef .tc main_v17) = Host.rsqrt e := by
  after_results; rw [h14]
private theorem s2_cst4 : after (hostOps0_2 (F := F)) W (Proc.devRef .tc main_cst_4) = constant (F := F) S_ .f32 0x00000000#32 := by
  after_results

/-- The fourth stretch: the inverse square root of the degree where it is positive, zero elsewhere. -/
private theorem s3_v18 (d : (⟨S100000, .f32⟩ : BufTy).Contents (Elt F))
    (h16 : W (Proc.devRef .tc main_v16) = cmpf .ogt d Cert.Stages.zeros1)
    (h17 : W (Proc.devRef .tc main_v17) = Host.rsqrt (Cert.Stages.degSafe d))
    (h4 : W (Proc.devRef .tc main_cst_4) = constant (F := F) S_ .f32 0x00000000#32) :
    after (hostOps0_3 (F := F)) W (Proc.devRef .tc main_v18) = Cert.Stages.invSqrtOf d := by
  after_results
  show select (W (Proc.devRef .tc main_v16)) (W (Proc.devRef .tc main_v17))
      (broadcastInDim S100000 ![] Facts₀.bcast_S_S100000 (W (Proc.devRef .tc main_cst_4))) = _
  rw [h16, h17, h4]; rfl

/-- The fifth stretch: every edge's symmetric normalisation. -/
private theorem s4_v34 (ei : (⟨S2x1600000, .i32⟩ : BufTy).Contents (Elt F)) (ew : (⟨S1600000, .f32⟩ : BufTy).Contents (Elt F))
    (h18 : W (Proc.devRef .tc main_v18) = Cert.Stages.invSqrtDeg ei ew)
    (h5 : W (Proc.devRef .tc main_v5) = Cert.Stages.srcIdx ei) (h6 : W (Proc.devRef .tc main_v6) = Cert.Stages.dstIdx ei)
    (h8 : W (Proc.devRef .tc main_v8) = Cert.Stages.edgeW ew) :
    after (hostOps0_4 (F := F)) W (Proc.devRef .tc main_v34) = Cert.Stages.edgeNorm ei ew := by
  after_results_simp
  rw [h18, h5, h6, h8]; rfl

/-- The stretch between the first two regions: the aggregation of the first region's result. -/
private theorem s5_v48 (ei : (⟨S2x1600000, .i32⟩ : BufTy).Contents (Elt F)) (ew : (⟨S1600000, .f32⟩ : BufTy).Contents (Elt F))
    (h : (⟨S100000x128, .f32⟩ : BufTy).Contents (Elt F))
    (h5 : W (Proc.devRef .tc main_v5) = Cert.Stages.srcIdx ei) (h6 : W (Proc.devRef .tc main_v6) = Cert.Stages.dstIdx ei)
    (h34 : W (Proc.devRef .tc main_v34) = Cert.Stages.edgeNorm ei ew) (h35 : W (Proc.devRef .tc main_v35) = h) :
    after (hostOps1 (F := F)) W (Proc.devRef .tc main_v48) = Cert.Stages.aggregate ei ew h := by
  after_results_simp
  rw [h5, h6, h34, h35]; rfl

end Stretch

section Walk
variable (m : (ℓ : Loc nD τ sig) → Buf (Elt F) ℓ) (ρ : Dev nD → PrngReg) (c : Dev nD)

/-! ### The fold walked from the launch: what each boundary holds in the buffers the later stretches read -/

private theorem w1_v5 : W1 m ρ c (Proc.devRef .tc main_v5) = Cert.Stages.srcIdx (m ((c : Thread nD τ).loc main_arg1)) :=
  s0_v5 (W0 m ρ c)
private theorem w1_v6 : W1 m ρ c (Proc.devRef .tc main_v6) = Cert.Stages.dstIdx (m ((c : Thread nD τ).loc main_arg1)) :=
  s0_v6 (W0 m ρ c)
private theorem w1_v8 : W1 m ρ c (Proc.devRef .tc main_v8) = Cert.Stages.edgeW (m ((c : Thread nD τ).loc main_arg2)) :=
  s0_v8 (W0 m ρ c)
private theorem w1_v11 : W1 m ρ c (Proc.devRef .tc main_v11)
    = Cert.Stages.degree (m ((c : Thread nD τ).loc main_arg1)) (m ((c : Thread nD τ).loc main_arg2)) :=
  s0_v11 (W0 m ρ c)
private theorem w1_v13 : W1 m ρ c (Proc.devRef .tc main_v13)
    = cmpf .ogt (Cert.Stages.degree (m ((c : Thread nD τ).loc main_arg1)) (m ((c : Thread nD τ).loc main_arg2))) Cert.Stages.zeros1 :=
  s0_v13 (W0 m ρ c)
private theorem w1_cst2 : W1 m ρ c (Proc.devRef .tc main_cst_2) = constant (F := F) S_ .f32 0x3F800000#32 :=
  s0_cst2 (W0 m ρ c)

private theorem w2_v11 : W2 m ρ c (Proc.devRef .tc main_v11)
    = Cert.Stages.degree (m ((c : Thread nD τ).loc main_arg1)) (m ((c : Thread nD τ).loc main_arg2)) :=
  (show W2 m ρ c (Proc.devRef .tc main_v11) = W1 m ρ c (Proc.devRef .tc main_v11) by keeps hostOps0_1).trans (w1_v11 m ρ c)
private theorem w2_v14 : W2 m ρ c (Proc.devRef .tc main_v14)
    = Cert.Stages.degSafe (Cert.Stages.degree (m ((c : Thread nD τ).loc main_arg1)) (m ((c : Thread nD τ).loc main_arg2))) :=
  s1_v14 (W1 m ρ c) _ (w1_v11 m ρ c) (w1_v13 m ρ c) (w1_cst2 m ρ c)

private theorem w3_v16 : W3 m ρ c (Proc.devRef .tc main_v16)
    = cmpf .ogt (Cert.Stages.degree (m ((c : Thread nD τ).loc main_arg1)) (m ((c : Thread nD τ).loc main_arg2))) Cert.Stages.zeros1 :=
  s2_v16 (W2 m ρ c) _ (w2_v11 m ρ c)
private theorem w3_v17 : W3 m ρ c (Proc.devRef .tc main_v17)
    = Host.rsqrt (Cert.Stages.degSafe (Cert.Stages.degree (m ((c : Thread nD τ).loc main_arg1)) (m ((c : Thread nD τ).loc main_arg2)))) :=
  s2_v17 (W2 m ρ c) _ (w2_v14 m ρ c)
private theorem w3_cst4 : W3 m ρ c (Proc.devRef .tc main_cst_4) = constant (F := F) S_ .f32 0x00000000#32 :=
  s2_cst4 (W2 m ρ c)

private theorem w4_v18 : W4 m ρ c (Proc.devRef .tc main_v18)
    = Cert.Stages.invSqrtDeg (m ((c : Thread nD τ).loc main_arg1)) (m ((c : Thread nD τ).loc main_arg2)) :=
  s3_v18 (W3 m ρ c) _ (w3_v16 m ρ c) (w3_v17 m ρ c) (w3_cst4 m ρ c)
private theorem w4_v5 : W4 m ρ c (Proc.devRef .tc main_v5) = Cert.Stages.srcIdx (m ((c : Thread nD τ).loc main_arg1)) :=
  calc W4 m ρ c (Proc.devRef .tc main_v5)
    _ = W3 m ρ c (Proc.devRef .tc main_v5) := by keeps hostOps0_3
    _ = W2 m ρ c (Proc.devRef .tc main_v5) := by keeps hostOps0_2
    _ = W1 m ρ c (Proc.devRef .tc main_v5) := by keeps hostOps0_1
    _ = _ := w1_v5 m ρ c
private theorem w4_v6 : W4 m ρ c (Proc.devRef .tc main_v6) = Cert.Stages.dstIdx (m ((c : Thread nD τ).loc main_arg1)) :=
  calc W4 m ρ c (Proc.devRef .tc main_v6)
    _ = W3 m ρ c (Proc.devRef .tc main_v6) := by keeps hostOps0_3
    _ = W2 m ρ c (Proc.devRef .tc main_v6) := by keeps hostOps0_2
    _ = W1 m ρ c (Proc.devRef .tc main_v6) := by keeps hostOps0_1
    _ = _ := w1_v6 m ρ c
private theorem w4_v8 : W4 m ρ c (Proc.devRef .tc main_v8) = Cert.Stages.edgeW (m ((c : Thread nD τ).loc main_arg2)) :=
  calc W4 m ρ c (Proc.devRef .tc main_v8)
    _ = W3 m ρ c (Proc.devRef .tc main_v8) := by keeps hostOps0_3
    _ = W2 m ρ c (Proc.devRef .tc main_v8) := by keeps hostOps0_2
    _ = W1 m ρ c (Proc.devRef .tc main_v8) := by keeps hostOps0_1
    _ = _ := w1_v8 m ρ c

private theorem w6_v5 : W6 m ρ c (Proc.devRef .tc main_v5) = Cert.Stages.srcIdx (m ((c : Thread nD τ).loc main_arg1)) :=
  calc W6 m ρ c (Proc.devRef .tc main_v5)
    _ = W5 m ρ c (Proc.devRef .tc main_v5) := W6_of_ne m ρ c main_v5 (by decide)
    _ = W4 m ρ c (Proc.devRef .tc main_v5) := by keeps hostOps0_4
    _ = _ := w4_v5 m ρ c
private theorem w6_v6 : W6 m ρ c (Proc.devRef .tc main_v6) = Cert.Stages.dstIdx (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by keeps hostOps0_4
    _ = _ := w4_v6 m ρ c
private theorem w6_v34 : W6 m ρ c (Proc.devRef .tc main_v34)
    = Cert.Stages.edgeNorm (m ((c : Thread nD τ).loc main_arg1)) (m ((c : Thread nD τ).loc main_arg2)) :=
  calc W6 m ρ c (Proc.devRef .tc main_v34)
    _ = W5 m ρ c (Proc.devRef .tc main_v34) := W6_of_ne m ρ c main_v34 (by decide)
    _ = _ := s4_v34 (W4 m ρ c) _ _ (w4_v18 m ρ c) (w4_v5 m ρ c) (w4_v6 m ρ c) (w4_v8 m ρ c)

/-- An argument no stretch before the first region writes is, at that region's entry, as launched. -/
private theorem w5_arg0 : W5 m ρ c (Proc.devRef .tc main_arg0) = m ((c : Thread nD τ).loc main_arg0) :=
  calc W5 m ρ c (Proc.devRef .tc main_arg0)
    _ = W4 m ρ c (Proc.devRef .tc main_arg0) := by keeps hostOps0_4
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = _ := rfl
private theorem w5_arg3 : W5 m ρ c (Proc.devRef .tc main_arg3) = m ((c : Thread nD τ).loc main_arg3) :=
  calc W5 m ρ c (Proc.devRef .tc main_arg3)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = _ := rfl

/-- The scale and the shift are, at the second region's exit, as launched: no stretch and no region writes them. -/
private theorem w8_arg4 : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by keeps hostOps1
    _ = W5 m ρ c (Proc.devRef .tc main_arg4) := W6_of_ne m ρ c main_arg4 (by decide)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = _ := rfl
private theorem w8_arg5 : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by keeps hostOps1
    _ = W5 m ρ c (Proc.devRef .tc main_arg5) := W6_of_ne m ρ c main_arg5 (by decide)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = _ := rfl

end Walk

variable (m : (ℓ : Loc nD τ sig) → Buf (Elt F) ℓ) (ρ : Dev nD → PrngReg)

/-- Region 0 is entered with the two matrices as launched. -/
theorem V5_arg0 (c : Dev nD) : V5 m ρ c main_arg0 = m ((c : Thread nD τ).loc main_arg0) := w5_arg0 m ρ c
theorem V5_arg3 (c : Dev nD) : V5 m ρ c main_arg3 = m ((c : Thread nD τ).loc main_arg3) := w5_arg3 m ρ c

/-- Region 1 is entered with its input array at the aggregation of region 0's result over the launched edge table
    and weights. -/
theorem V7_v48 (c : Dev nD) :
    V7 m ρ c main_v48 = Cert.Stages.aggregate (m ((c : Thread nD τ).loc main_arg1)) (m ((c : Thread nD τ).loc main_arg2))
      (V6 m ρ c main_v35) :=
  s5_v48 (W6 m ρ c) _ _ _ (w6_v5 m ρ c) (w6_v6 m ρ c) (w6_v34 m ρ c) rfl

/-- Region 2 is entered with that array unchanged. -/
theorem V9_v48 (c : Dev nD) : V9 m ρ c main_v48 = V7 m ρ c main_v48 :=
  calc W9 m ρ c (Proc.devRef .tc main_v48)
    _ = W8 m ρ c (Proc.devRef .tc main_v48) := by keeps hostOps2
    _ = W7 m ρ c (Proc.devRef .tc main_v48) :=
        (W8_arr m ρ c 0).trans (((dat1 (V7 m ρ) c).arrAt_in 0 rfl _).trans (A_eq1 (V7 m ρ) c 0))

end Cert.KernelIdeal.HostVal

namespace Cert.KernelIdeal.HostValI

open Cert.KernelIdeal Cert.KernelIdeal.Gen Idealize.ShloMosaic Idealize.ShloMosaic.TcCoe Idealize.SL.Sem ValueIdx
open Idealize.ShloMosaic.Pipeline (Dat Cfg Window)
open Idealize.ShloMosaic.StableHlo Cert.Stages

/-- A vector of 128 entries stored as a one-row matrix reads, at column j of that row, its entry j. -/
private theorem row_apply {α : Type} (x : S128.Idx → α) (h : S128.ShapeCasts S1x128) (j : Fin 128) :
    shapeCast S1x128 x h (ix2 (0 : Fin 1) j) = x (ix1 j) :=
  shapeCast_apply x h (ix2 (0 : Fin 1) j) (ix1 j)
    (by rw [Shape.rowMajor_val_one, Shape.rowMajor_val_two]; show j.val = 0 * 128 + j.val; omega)
/-- A one-row matrix flattened to a vector reads, at entry j, column j of its row. -/
private theorem flat_apply {α : Type} (x : S1x128.Idx → α) (h : S1x128.ShapeCasts S128) (j : Fin 128) :
    shapeCast S128 x h (ix1 j) = x (ix2 (0 : Fin 1) j) :=
  shapeCast_apply x h (ix1 j) (ix2 (0 : Fin 1) j)
    (by rw [Shape.rowMajor_val_one, Shape.rowMajor_val_two]; show 0 * 128 + j.val = j.val; omega)

section Stretch
variable (W : Valuation τ sig (Elt Ideal))

/-! ### The last stretch of host operations read at a column, over any contents W at its start -/

/-- The column's mean: its sum over the row count. -/
private theorem r_v61 (j : Fin 128) :
    (after (hostOps2 (F := Ideal)) W (Proc.devRef .tc main_v61) (ix2 (0 : Fin 1) j) : EReal)
      = Ideal.div (W (Proc.devRef .tc main_v49_0) (ix2 (0 : Fin 1) j) : EReal) nRows := by
  after_results
  show (shapeCast S1x128 (shapeCast S128 (Host.divf (F := Ideal) (W (Proc.devRef .tc main_v49_0))
          (broadcastInDim S1x128 ![] Facts₀.bcast_S_S1x128 (constant (F := Ideal) S_ .f32 0x47C35000#32)))
        Facts₀.shapeCasts_S1x128_S128) Facts₀.shapeCasts_S128_S1x128 (ix2 (0 : Fin 1) j) : EReal) = _
  rw [row_apply, flat_apply]
  rfl

/-- The column's inverse standard deviation: the mean of the squares less the squared mean, stabilised. -/
private theorem r_v62 (j : Fin 128) :
    (after (hostOps2 (F := Ideal)) W (Proc.devRef .tc main_v62) (ix2 (0 : Fin 1) j) : EReal)
      = Ideal.rsqrt (Ideal.div (W (Proc.devRef .tc main_v49_1) (ix2 (0 : Fin 1) j) : EReal) nRows
          - Ideal.div (W (Proc.devRef .tc main_v49_0) (ix2 (0 : Fin 1) j) : EReal) nRows
            * Ideal.div (W (Proc.devRef .tc main_v49_0) (ix2 (0 : Fin 1) j) : EReal) nRows
          + epsBN) := by
  after_results
  show (shapeCast S1x128 (Host.rsqrt (F := Ideal) (addf
          (subf
            (shapeCast S128 (Host.divf (F := Ideal) (W (Proc.devRef .tc main_v49_1))
              (broadcastInDim S1x128 ![] Facts₀.bcast_S_S1x128 (constant (F := Ideal) S_ .f32 0x47C35000#32))) Facts₀.shapeCasts_S1x128_S128)
            (mulf
              (shapeCast S128 (Host.divf (F := Ideal) (W (Proc.devRef .tc main_v49_0))
                (broadcastInDim S1x128 ![] Facts₀.bcast_S_S1x128 (constant (F := Ideal) S_ .f32 0x47C35000#32))) Facts₀.shapeCasts_S1x128_S128)
              (shapeCast S128 (Host.divf (F := Ideal) (W (Proc.devRef .tc main_v49_0))
                (broadcastInDim S1x128 ![] Facts₀.bcast_S_S1x128 (constant (F := Ideal) S_ .f32 0x47C35000#32))) Facts₀.shapeCasts_S1x128_S128)))
          (broadcastInDim S128 ![] Facts₀.bcast_S_S128 (constant (F := Ideal) S_ .f32 0x3727C5AC#32))))
        Facts₀.shapeCasts_S128_S1x128 (ix2 (0 : Fin 1) j) : EReal) = _
  rw [row_apply]
  simp only [Host.rsqrt, addf, subf, mulf, flat_apply]
  rfl

/-- The scale and the shift: the launched vectors as one-row matrices. -/
private theorem r_v63 (j : Fin 128) :
    (after (hostOps2 (F := Ideal)) W (Proc.devRef .tc main_v63) (ix2 (0 : Fin 1) j) : EReal)
      = (W (Proc.devRef .tc main_arg4) (ix1 j) : EReal) := by
  after_results
  show (shapeCast S1x128 (W (Proc.devRef .tc main_arg4)) Facts₀.shapeCasts_S128_S1x128 (ix2 (0 : Fin 1) j) : EReal) = _
  rw [row_apply]
private theorem r_v64 (j : Fin 128) :
    (after (hostOps2 (F := Ideal)) W (Proc.devRef .tc main_v64) (ix2 (0 : Fin 1) j) : EReal)
      = (W (Proc.devRef .tc main_arg5) (ix1 j) : EReal) := by
  after_results
  show (shapeCast S1x128 (W (Proc.devRef .tc main_arg5)) Facts₀.shapeCasts_S128_S1x128 (ix2 (0 : Fin 1) j) : EReal) = _
  rw [row_apply]

end Stretch

variable (m : (ℓ : Loc nD τ sig) → Buf (Elt Ideal) ℓ) (ρ : Dev nD → PrngReg)

/-- Region 2's four row vectors at entry, read at a column: the mean, the inverse standard deviation, and the
    launched scale and shift. -/
theorem V9_v61 (c : Dev nD) (j : Fin 128) :
    (V9 m ρ c main_v61 (ix2 (0 : Fin 1) j) : EReal) = Ideal.div (V8 m ρ c main_v49_0 (ix2 (0 : Fin 1) j) : EReal) nRows :=
  r_v61 (W8 m ρ c) j
theorem V9_v62 (c : Dev nD) (j : Fin 128) :
    (V9 m ρ c main_v62 (ix2 (0 : Fin 1) j) : EReal)
      = Ideal.rsqrt (Ideal.div (V8 m ρ c main_v49_1 (ix2 (0 : Fin 1) j) : EReal) nRows
          - Ideal.div (V8 m ρ c main_v49_0 (ix2 (0 : Fin 1) j) : EReal) nRows * Ideal.div (V8 m ρ c main_v49_0 (ix2 (0 : Fin 1) j) : EReal) nRows
          + epsBN) :=
  r_v62 (W8 m ρ c) j
theorem V9_v63 (c : Dev nD) (j : Fin 128) :
    (V9 m ρ c main_v63 (ix2 (0 : Fin 1) j) : EReal) = (m ((c : Thread nD τ).loc main_arg4) (ix1 j) : EReal) :=
  (r_v63 (W8 m ρ c) j).trans (congrFun (Cert.KernelIdeal.HostVal.w8_arg4 m ρ c) (ix1 j))
theorem V9_v64 (c : Dev nD) (j : Fin 128) :
    (V9 m ρ c main_v64 (ix2 (0 : Fin 1) j) : EReal) = (m ((c : Thread nD τ).loc main_arg5) (ix1 j) : EReal) :=
  (r_v64 (W8 m ρ c) j).trans (congrFun (Cert.KernelIdeal.HostVal.w8_arg5 m ρ c) (ix1 j))

end Cert.KernelIdeal.HostValI

end
-- ==== Proof.KernelReg0.lean ====
import proofs.«171873_j11338713662112_1_alg».proof.Proof.Gen.KernelIdeal.Frame
import proofs.«171873_j11338713662112_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem ValueIdx
open Idealize.ShloMosaic.Pipeline (Dat Cfg Window)

/-! ## The contraction of the kernel's product: which entry of each operand a term reads -/

/-- The dimension numbers of the product: rows of the left operand against columns of the right one, contracting the
    left operand's axis 1 with the right operand's axis 0. -/
private abbrev dims := dot_S5000x128_S128x128_S5000x128_1_0_0_1_n_n

/-- Off the contracted axis the left operand is read at the output's row … -/
private theorem lhs_row (j : S5000x128.Idx) (k : dims.contr.Idx) : (dims.lhsIdx j k 0 : ℕ) = j 0 := by
  simp [DotDims.lhsIdx, dims, dot_S5000x128_S128x128_S5000x128_1_0_0_1_n_n]; rfl
/-- … and on it at the summation index. -/
private theorem lhs_contr (j : S5000x128.Idx) (k : dims.contr.Idx) : (dims.lhsIdx j k 1 : ℕ) = k ⟨0, by decide⟩ := by
  simp [DotDims.lhsIdx, dims, dot_S5000x128_S128x128_S5000x128_1_0_0_1_n_n]; rfl
/-- The right operand is read at the summation index on its contracted axis … -/
private theorem rhs_contr (j : S5000x128.Idx) (k : dims.contr.Idx) : (dims.rhsIdx j k 0 : ℕ) = k ⟨0, by decide⟩ := by
  simp [DotDims.rhsIdx, dims, dot_S5000x128_S128x128_S5000x128_1_0_0_1_n_n]; rfl
/-- … and at the output's column off it. -/
private theorem rhs_col (j : S5000x128.Idx) (k : dims.contr.Idx) : (dims.rhsIdx j k 1 : ℕ) = j 1 := by
  simp [DotDims.rhsIdx, dims, dot_S5000x128_S128x128_S5000x128_1_0_0_1_n_n]; rfl

/-- The body's stored value at entry (p, q) of its block: the two operands are only re-formatted (the identity on the
    extended reals) and multiplied into a zero accumulator, so the entry is the sum over k of x0(p, k) · x1(k, q). -/
private theorem body_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dims none _ _ (ix2 p q)).trans ?_
  rw [← Equiv.sum_comp (contrEquiv1 dims 128 rfl rfl).symm]
  refine Finset.sum_congr rfl fun k _ => ?_
  have hk := contrEquiv1_symm_val dims 128 rfl rfl k
  have hl : dims.lhsIdx (ix2 p q) ((contrEquiv1 dims 128 rfl rfl).symm k) = ix2 p k := by
    funext a; apply Fin.ext
    match a with
    | ⟨0, _⟩ => exact lhs_row _ _
    | ⟨1, _⟩ => exact (lhs_contr _ _).trans hk
  have hr : dims.rhsIdx (ix2 p q) ((contrEquiv1 dims 128 rfl rfl).symm k) = ix2 k q := by
    funext a; apply Fin.ext
    match a with
    | ⟨0, _⟩ => exact (rhs_contr _ _).trans hk
    | ⟨1, _⟩ => exact rhs_col _ _
  show x0 (dims.lhsIdx (ix2 p q) ((contrEquiv1 dims 128 rfl rfl).symm k)) * x1 (dims.rhsIdx (ix2 p q) ((contrEquiv1 dims 128 rfl rfl).symm k)) = _
  rw [hl, hr]

variable (V : (c : Dev nD) → (b : Ref sig .tc) → Buf (Elt Ideal) ((c : Thread nD τ).loc b))

/-- The region's two input arrays and its output array after the last write-back, at their literal types. -/
abbrev xArr (c : Dev nD) : S100000x128.Idx → EReal := V c main_arg0
abbrev wArr (c : Dev nD) : S128x128.Idx → EReal := V c main_arg3
abbrev outArr (c : Dev nD) : S100000x128.Idx → EReal := (dat0 (F := Ideal) V c).arrAt 2 cfg0.N

/-! ## The whole product, and each grid point's share of it -/

/-- The zero offsets of the body's whole-buffer accesses, as the constant function. -/
private theorem zero_offsets : (![0, 0] : Fin 2 → Nat) = fun _ => 0 := funext fun a => by fin_cases a <;> rfl

/-- The product of a [100000,128] matrix with a [128,128] matrix, entry by entry: entry i is the sum over k of
    x(i₀, k) · w(k, i₁). -/
def matProd (x : S100000x128.Idx → EReal) (w : S128x128.Idx → EReal) : S100000x128.Idx → EReal :=
  fun i => ∑ k : Fin 128, x (ix2 (i 0 : Fin 100000) k) * w (ix2 k (i 1 : Fin 128))

/-- The kernel's block index maps, decided over the 20 grid points: point t takes row block t of the left operand and of the
    output, and the one block of the right operand. -/
private theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of the left operand is rows 5000t … 5000t + 4999 of it. -/
private theorem xblock_entry (c : Dev nD) (t : Fin cfg0.N) (y : S5000x128.Idx) (i : S100000x128.Idx)
    (h0 : (i 0).val = 5000 * t.val + (y 0).val) (h1 : (i 1).val = (y 1).val) :
    (iblk0 (F := Ideal) V c 0 t : Vec Ideal S5000x128 .f32) y = xArr V c i := by
  obtain ⟨e0, e1, -, -, -, -⟩ := block_indices t
  unfold iblk0
  rw [View.read_apply]
  show V c main_arg0 _ = V c main_arg0 _
  congr 1
  funext a; apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Every point's block of the right operand is the whole of it. -/
private theorem wblock_entry (c : Dev nD) (t : Fin cfg0.N) (y : S128x128.Idx) :
    (iblk0 (F := Ideal) V c 1 t : Vec Ideal S128x128 .f32) y = wArr V c y := by
  obtain ⟨-, -, e0, e1, -, -⟩ := block_indices t
  unfold iblk0
  rw [View.read_apply]
  show V c main_arg3 _ = V c main_arg3 _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What the body leaves at entry (p, q) of point t's output block: row 5000t + p of the left operand against column q
    of the right one. -/
private theorem body_entry_at_point (c : Dev nD) (t : Fin cfg0.N) (p : Fin 5000) (q : Fin 128) (i : S100000x128.Idx)
    (h0 : (i 0).val = 5000 * t.val + p.val) (h1 : (i 1).val = q.val) :
    k0_pay1 (F := Ideal) (iblk0 (F := Ideal) V c 0 t) (iblk0 (F := Ideal) V c 1 t) (ix2 p q) = matProd (xArr V c) (wArr V c) i := by
  refine (body_entry _ _ p q).trans ?_
  unfold matProd
  refine Finset.sum_congr rfl fun k _ => ?_
  refine congrArg₂ (· * ·) (xblock_entry V c t (ix2 p k) _ h0 rfl) ((wblock_entry V c t (ix2 k q)).trans (congrArg (wArr V c) ?_))
  funext a; apply Fin.ext
  match a with
  | ⟨0, _⟩ => rfl
  | ⟨1, _⟩ => exact h1.symm

/-- WHAT POINT t WRITES BACK is block t of the product of the two input arrays as the region finds them. -/
private theorem writeback_eq_block (c : Dev nD) (t : Fin cfg0.N) :
    (dat0 (F := Ideal) V c).flushed 2 t = ((cfg0.win 2).blk t).view.read (Elt Ideal) (matProd (xArr V c) (wArr V c)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e0, e1⟩ := block_indices t
  funext j
  show k0_pay1 (F := Ideal) (iblk0 (F := Ideal) V c 0 t) (iblk0 (F := Ideal) V c 1 t) j = matProd (xArr V c) (wArr V c) (((cfg0.win 2).blk t).view.emb j)
  obtain ⟨p, q, rfl⟩ : ∃ (p : Fin 5000) (q : Fin 128), j = ix2 p q := ⟨j 0, j 1, eq_ix2 j⟩
  refine body_entry_at_point V c t p q _ ?_ ?_
  · show win0_2.index t (0 : Fin 2) * 5000 + 1 * p.val = 5000 * t.val + p.val; rw [e0]; omega
  · show win0_2.index t (1 : Fin 2) * 128 + 1 * q.val = q.val; rw [e1]; omega

/-- An index of the output array is in point t's block iff each coordinate is in the block's range on its axis. -/
private theorem mem_block_iff (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every row is in some point's block: row r in the block of point r / 5000. -/
private theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; rw [hN]; omega⟩
  obtain ⟨-, -, -, -, e0, e1⟩ := block_indices t
  have ht : t.val = (i 0).val / 5000 := rfl
  refine ⟨t, flush0_2 t, ?_⟩
  rw [mem_block_iff]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- THE ARRAY after the region's last write-back is the product of the two input arrays. -/
theorem outArr_eq_matProd (c : Dev nD) : outArr V c = matProd (xArr V c) (wArr V c) :=
  (dat0 (F := Ideal) V c).arrAt_eq_of_cover 2 (matProd (xArr V c) (wArr V c)) (fun t _ => writeback_eq_block V c t) rows_covered

/-- Region 0 leaves in its output array the matrix product of its two input arrays: entry (r, j) is the sum over k
    of x(r, k) · w(k, j). -/
theorem value (c : Dev nD) (r : Fin 100000) (j : Fin 128) :
    outArr V c (ix2 r j) = ∑ k : Fin 128, xArr V c (ix2 r k) * wArr V c (ix2 k j) := by
  rw [outArr_eq_matProd]
  rfl

end Cert.KernelIdeal.Reg0

end
-- ==== Proof.KernelReg1.lean ====
/-
  Region 1 (the statistics kernel): the column sums and the column sums of squares of a 100000 × 128 array.

  The grid has 20 points.  Point t holds rows 5000·t … 5000·t + 4999 of the input in its block; the two outputs
  are one row of 128 columns each, the same block (0, 0) at every point, so what a point leaves in them is what
  the next point finds.  The first point stores a zero row, reads it back and adds the block's sum over rows
  (of the entries, and of their squares); every later point adds its block's sums to what is there.  Hence, by
  induction on the point, after point n the first output holds at column j the sum of the entries of column j
  over the rows below 5000·(n+1), and the second the sum of their squares.  Only the last point writes the
  outputs back, and its block is the whole one-row array, so the arrays end holding the sums over the rows
  below 5000·20 = 100000: all of them.  Sums of extended reals are commutative and associative, so no entry
  needs to be finite.
-/
import proofs.«171873_j11338713662112_1_alg».proof.Proof.Gen.KernelIdeal.Frame
import proofs.«171873_j11338713662112_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem ValueIdx
open Idealize.ShloMosaic.Pipeline (Dat Cfg Window)

/-! ## What one grid point leaves in the two outputs' staging buffers -/

section Pieces
variable {F : FTy → Type} [FloatOps F]

private theorem hz : (![0, 0] : Fin 2 → Nat) = fun _ => 0 := funext fun a => by fin_cases a <;> rfl

/-- A later point adds the block's column sums to what the first output held. -/
private theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S5000x128) hz,
    View.ld_unit_zero (S := S1x128) hz]

/-- A later point adds the block's column sums of squares to what the second output held. -/
private theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S5000x128) hz,
    View.ld_unit_zero (S := S1x128) hz]

/-- The first point stores the zero row, reads it back, and adds the block's column sums to it. -/
private theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The first point does the same with the squares in the second output. -/
private theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

/-! ## The body's arithmetic at a column, over the extended reals -/

/-- The index the reduction over rows reads at column `j` and row `k`. -/
private theorem lift_rows (h : S5000x128.Reduces [0] S128) (j : Fin 128) (k : Fin 5000) :
    h.lift (ix1 j) k = ix2 k j := by
  funext a
  match a with
  | ⟨0, _⟩ => exact Fin.ext rfl
  | ⟨1, _⟩ => exact Fin.ext rfl

/-- A block's sum over rows, cast to one row, at column `j`. -/
private theorem rowsum_apply (y : FVec Ideal S5000x128 .f32) (h : S5000x128.Reduces [0] S128) (hc : S128.ShapeCasts S1x128)
    (hφ : FKind.Formats .f32) (hacc : (0x00000000#32 : BitVec 32) = FKind.add.neutral .f32 hφ) (j : Fin 128) :
    shapeCast S1x128 (multiReduction (F := Ideal) .add [0] S128 y 0x00000000#32 h hφ hacc) hc (ix2 (0 : Fin 1) j)
      = ∑ k : Fin 5000, y (ix2 k j) := by
  refine (shapeCast_a_1a_apply _ hc (0 : Fin 1) j).trans ?_
  refine (Ideal.multiReduction_add_single y 0x00000000#32 h hφ hacc (ix1 j)).trans ?_
  show ∑ k : Fin 5000, y (h.lift (ix1 j) k) = _
  exact Finset.sum_congr rfl fun k _ => congrArg y (lift_rows h j k)

/-- The zero row the first point stores. -/
private theorem pay1_apply (i : S1x128.Idx) : k1_pay1 (F := Ideal) i = 0 := by
  unfold k1_pay1
  exact Ideal.ofBits_zero_f32

private theorem pay2_apply (i : S1x128.Idx) : k1_pay2 (F := Ideal) i = 0 := by
  unfold k1_pay2
  exact Ideal.ofBits_zero_f32

/-- The first output's update at column `j`: what it held plus the block's column sum. -/
private theorem pay4_apply (x : Vec Ideal S5000x128 .f32) (acc : Vec Ideal S1x128 .f32) (j : Fin 128) :
    k1_pay4 x acc (ix2 (0 : Fin 1) j) = acc (ix2 (0 : Fin 1) j) + ∑ k : Fin 5000, x (ix2 k j) := by
  unfold k1_pay4 k1_pay3
  dsimp only
  refine (addf_apply _ _ _).trans ?_
  refine congrArg₂ (· + ·) (congrFun (shapeCast_self acc _) _) ?_
  refine (rowsum_apply _ _ _ _ _ j).trans ?_
  exact Finset.sum_congr rfl fun k _ => congrFun (shapeCast_self x _) _

/-- The second output's update at column `j`: what it held plus the block's column sum of squares. -/
private theorem pay5_apply (x : Vec Ideal S5000x128 .f32) (acc : Vec Ideal S1x128 .f32) (j : Fin 128) :
    k1_pay5 x acc (ix2 (0 : Fin 1) j) = acc (ix2 (0 : Fin 1) j) + ∑ k : Fin 5000, x (ix2 k j) * x (ix2 k j) := by
  unfold k1_pay5 k1_pay3
  dsimp only
  refine (addf_apply _ _ _).trans ?_
  refine congrArg₂ (· + ·) (congrFun (shapeCast_self acc _) _) ?_
  refine (rowsum_apply _ _ _ _ _ j).trans ?_
  refine Finset.sum_congr rfl fun k _ => ?_
  refine (mulf_apply _ _ _).trans ?_
  rw [shapeCast_self]

variable (V : (c : Dev nD) → (b : Ref sig .tc) → Buf (Elt Ideal) ((c : Thread nD τ).loc b))

/-- The region's input array and its two output arrays after the last write-back, at their literal types. -/
abbrev aArr (c : Dev nD) : S100000x128.Idx → EReal := V c main_v48
abbrev sumArr (c : Dev nD) : S1x128.Idx → EReal := (dat1 (F := Ideal) V c).arrAt 1 cfg1.N
abbrev sumsqArr (c : Dev nD) : S1x128.Idx → EReal := (dat1 (F := Ideal) V c).arrAt 2 cfg1.N

/-! ## The input's blocks: point `t` loads rows 5000·t … 5000·t + 4999 -/

/-- The block of 5000 rows the input window holds at point `t`. -/
private abbrev blk (c : Dev nD) (t : Fin cfg1.N) : Vec Ideal S5000x128 .f32 := iblk1 (F := Ideal) V c 0 t

private theorem N1 : cfg1.N = 20 := N_1

/-- The input window's block index at point `t` is `(t, 0)`. -/
private theorem idx_in : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `k` of the block at point `t` is row `5000·t + k` of the array. -/
private theorem blk_apply (c : Dev nD) (t : Fin cfg1.N) (k : Fin 5000) (j : Fin 128) (hr : 5000 * t.val + k.val < 100000) :
    blk V c t (ix2 k j) = aArr V c (ix2 ⟨5000 * t.val + k.val, hr⟩ j) := by
  unfold blk iblk1
  rw [View.read_apply]
  show V c main_v48 _ = V c main_v48 _
  refine congrArg (V c main_v48) ?_
  funext a
  apply Fin.ext
  match a with
  | ⟨0, _⟩ => show win1_0.index t 0 * 5000 + 1 * k.val = 5000 * t.val + k.val; rw [(idx_in t).1]; omega
  | ⟨1, _⟩ => show win1_0.index t 1 * 128 + 1 * j.val = j.val; rw [(idx_in t).2]; omega

/-! ## Running sums over the rows -/

/-- Entry `(r, j)` of an array of 100000 rows as a function of a natural row number: 0 past the last row. -/
private def rowAt (g : S100000x128.Idx → EReal) (j : Fin 128) (r : ℕ) : EReal :=
  if h : r < 100000 then g (ix2 ⟨r, h⟩ j) else 0

/-- The rows below `5000·(n+1)` are the rows below `5000·n` and the 5000 after them. -/
private theorem sum_rows_succ (g : S100000x128.Idx → EReal) (j : Fin 128) (n : ℕ) :
    ∑ r ∈ Finset.range (5000 * (n + 1)), rowAt g j r
      = ∑ r ∈ Finset.range (5000 * n), rowAt g j r + ∑ k : Fin 5000, rowAt g j (5000 * n + k.val) := by
  rw [show 5000 * (n + 1) = 5000 * n + 5000 from by omega, Finset.sum_range_add, Finset.sum_range (fun k => rowAt g j (5000 * n + k))]

/-- The first 5000 rows alone. -/
private theorem sum_rows_one (g : S100000x128.Idx → EReal) (j : Fin 128) :
    ∑ r ∈ Finset.range (5000 * (0 + 1)), rowAt g j r = ∑ k : Fin 5000, rowAt g j (5000 * 0 + k.val) := by
  rw [sum_rows_succ g j 0, Nat.mul_zero, Finset.range_zero, Finset.sum_empty, zero_add]

/-- All 100000 rows. -/
private theorem sum_rows_all (g : S100000x128.Idx → EReal) (j : Fin 128) :
    ∑ r ∈ Finset.range 100000, rowAt g j r = ∑ r : Fin 100000, g (ix2 r j) := by
  rw [Finset.sum_range (fun r => rowAt g j r)]
  refine Finset.sum_congr rfl fun r _ => ?_
  unfold rowAt
  rw [dif_pos r.isLt]

/-- The block at point `t` summed down column `j` is the sum of the array's rows `5000·t … 5000·t + 4999`. -/
private theorem blk_sum (c : Dev nD) (t : Fin cfg1.N) (j : Fin 128) :
    ∑ k : Fin 5000, blk V c t (ix2 k j) = ∑ k : Fin 5000, rowAt (aArr V c) j (5000 * t.val + k.val) := by
  refine Finset.sum_congr rfl fun k _ => ?_
  have ht : t.val < 20 := lt_of_lt_of_eq t.isLt N1
  have hr : 5000 * t.val + k.val < 100000 := by have := k.isLt; omega
  rw [blk_apply V c t k j hr]
  unfold rowAt
  rw [dif_pos hr]

/-- The same for the squares. -/
private theorem blk_sumsq (c : Dev nD) (t : Fin cfg1.N) (j : Fin 128) :
    ∑ k : Fin 5000, blk V c t (ix2 k j) * blk V c t (ix2 k j)
      = ∑ k : Fin 5000, rowAt (fun i => aArr V c i * aArr V c i) j (5000 * t.val + k.val) := by
  refine Finset.sum_congr rfl fun k _ => ?_
  have ht : t.val < 20 := lt_of_lt_of_eq t.isLt N1
  have hr : 5000 * t.val + k.val < 100000 := by have := k.isLt; omega
  rw [blk_apply V c t k j hr]
  unfold rowAt
  rw [dif_pos hr]

/-! ## The invariant: after point `n` the outputs hold the sums over the rows below `5000·(n+1)` -/

private theorem sum_inv (c : Dev nD) (j : Fin 128) : ∀ (n : ℕ) (h : n < cfg1.N),
    (outsAt1 (F := Ideal) V c n h).1 (ix2 (0 : Fin 1) j) = ∑ r ∈ Finset.range (5000 * (n + 1)), rowAt (aArr V c) j r
  | 0, h => by
    rw [outsAt1_A V c ⟨0, h⟩ (Nat.zero_mod _)]
    dsimp only
    refine (congrFun (out_A_1 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr (Nat.zero_mod _)) (blk V c ⟨0, h⟩)) (ix2 (0 : Fin 1) j)).trans ?_
    refine (pay4_apply (blk V c ⟨0, h⟩) (k1_pay1 (F := Ideal)) j).trans ?_
    rw [pay1_apply, zero_add, blk_sum V c ⟨0, h⟩ j, sum_rows_one]
  | n + 1, h => by
    have hN : cfg1.N = 20 := N1
    have hB : ¬(⟨n + 1, h⟩ : Fin cfg1.N).val % 20 = 0 := by dsimp only; omega
    have ih := sum_inv c j n (Nat.lt_of_succ_lt h)
    rw [outsAt1_B V c ⟨n + 1, h⟩ hB]
    dsimp only
    refine (congrFun (out_B_1 (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hc => hB ((hcond1_0 ⟨n + 1, h⟩).mp hc)) (blk V c ⟨n + 1, h⟩)
      (outsAt1 (F := Ideal) V c n (Nat.lt_of_succ_lt h)).1 (outsAt1 (F := Ideal) V c n (Nat.lt_of_succ_lt h)).2) (ix2 (0 : Fin 1) j)).trans ?_
    refine (pay4_apply (blk V c ⟨n + 1, h⟩) (outsAt1 (F := Ideal) V c n (Nat.lt_of_succ_lt h)).1 j).trans ?_
    rw [ih, blk_sum V c ⟨n + 1, h⟩ j, sum_rows_succ (aArr V c) j (n + 1)]

private theorem sumsq_inv (c : Dev nD) (j : Fin 128) : ∀ (n : ℕ) (h : n < cfg1.N),
    (outsAt1 (F := Ideal) V c n h).2 (ix2 (0 : Fin 1) j)
      = ∑ r ∈ Finset.range (5000 * (n + 1)), rowAt (fun i => aArr V c i * aArr V c i) j r
  | 0, h => by
    rw [outsAt1_A V c ⟨0, h⟩ (Nat.zero_mod _)]
    dsimp only
    refine (congrFun (out_A_2 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr (Nat.zero_mod _)) (blk V c ⟨0, h⟩)) (ix2 (0 : Fin 1) j)).trans ?_
    refine (pay5_apply (blk V c ⟨0, h⟩) (k1_pay2 (F := Ideal)) j).trans ?_
    rw [pay2_apply, zero_add, blk_sumsq V c ⟨0, h⟩ j, sum_rows_one]
  | n + 1, h => by
    have hN : cfg1.N = 20 := N1
    have hB : ¬(⟨n + 1, h⟩ : Fin cfg1.N).val % 20 = 0 := by dsimp only; omega
    have ih := sumsq_inv c j n (Nat.lt_of_succ_lt h)
    rw [outsAt1_B V c ⟨n + 1, h⟩ hB]
    dsimp only
    refine (congrFun (out_B_2 (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hc => hB ((hcond1_0 ⟨n + 1, h⟩).mp hc)) (blk V c ⟨n + 1, h⟩)
      (outsAt1 (F := Ideal) V c n (Nat.lt_of_succ_lt h)).1 (outsAt1 (F := Ideal) V c n (Nat.lt_of_succ_lt h)).2) (ix2 (0 : Fin 1) j)).trans ?_
    refine (pay5_apply (blk V c ⟨n + 1, h⟩) (outsAt1 (F := Ideal) V c n (Nat.lt_of_succ_lt h)).2 j).trans ?_
    rw [ih, blk_sumsq V c ⟨n + 1, h⟩ j, sum_rows_succ (fun i => aArr V c i * aArr V c i) j (n + 1)]

/-! ## The write-back: only the last point flushes, and its block is the whole one-row array -/

private theorem h19 : 19 < cfg1.N := by rw [N1]; decide

/-- What the two outputs' staging buffers hold after the last point. -/
private abbrev lastSum (c : Dev nD) : S1x128.Idx → EReal := (outsAt1 (F := Ideal) V c 19 h19).1
private abbrev lastSumsq (c : Dev nD) : S1x128.Idx → EReal := (outsAt1 (F := Ideal) V c 19 h19).2

/-- Both outputs' block index is `(0, 0)` at every point. -/
private theorem idx_out1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
private theorem idx_out2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

private theorem flushed_sum (c : Dev nD) (t : Fin cfg1.N) (hf : (cfg1.win 1).flush t = true) :
    (dat1 (F := Ideal) V c).flushed 1 t = ((cfg1.win 1).blk t).view.read (Elt Ideal) (lastSum V c) := by
  have hN : cfg1.N = 20 := N1
  have ht : t.val = 19 := by have := (flush1_1 t).mp hf; have := t.isLt; omega
  obtain rfl : t = ⟨19, h19⟩ := Fin.ext ht
  show (cfg1.win 1).cut (grid1.coords ⟨19, h19⟩) ((dat1 (F := Ideal) V c).after 1 ⟨19, h19⟩) = _
  rw [after1_1]
  have hz' : (fun a => win1_1.index ⟨19, h19⟩ a * main_v49_0.ty.shape.size a) = fun _ => 0 :=
    funext fun a => by
      match a with
      | ⟨0, _⟩ => show win1_1.index ⟨19, h19⟩ 0 * 1 = 0; rw [(idx_out1 ⟨19, h19⟩).1]
      | ⟨1, _⟩ => show win1_1.index ⟨19, h19⟩ 1 * 128 = 0; rw [(idx_out1 ⟨19, h19⟩).2]
  exact (Memref.read_access_unit_zero (Elt Ideal) main_v49_0 hz' (fun a => by rw [congrFun hz' a]; simp) (lastSum V c)).symm

private theorem flushed_sumsq (c : Dev nD) (t : Fin cfg1.N) (hf : (cfg1.win 2).flush t = true) :
    (dat1 (F := Ideal) V c).flushed 2 t = ((cfg1.win 2).blk t).view.read (Elt Ideal) (lastSumsq V c) := by
  have hN : cfg1.N = 20 := N1
  have ht : t.val = 19 := by have := (flush1_2 t).mp hf; have := t.isLt; omega
  obtain rfl : t = ⟨19, h19⟩ := Fin.ext ht
  show (cfg1.win 2).cut (grid1.coords ⟨19, h19⟩) ((dat1 (F := Ideal) V c).after 2 ⟨19, h19⟩) = _
  rw [after1_2]
  have hz' : (fun a => win1_2.index ⟨19, h19⟩ a * main_v49_1.ty.shape.size a) = fun _ => 0 :=
    funext fun a => by
      match a with
      | ⟨0, _⟩ => show win1_2.index ⟨19, h19⟩ 0 * 1 = 0; rw [(idx_out2 ⟨19, h19⟩).1]
      | ⟨1, _⟩ => show win1_2.index ⟨19, h19⟩ 1 * 128 = 0; rw [(idx_out2 ⟨19, h19⟩).2]
  exact (Memref.read_access_unit_zero (Elt Ideal) main_v49_1 hz' (fun a => by rw [congrFun hz' a]; simp) (lastSumsq V c)).symm

/-- So the first output array ends holding what its staging buffer held after the last point. -/
private theorem final_sum (c : Dev nD) : sumArr V c = lastSum V c :=
  (dat1 (F := Ideal) V c).arrAt_eq_of_cover 1 (lastSum V c) (flushed_sum V c) fun i =>
    ⟨⟨19, h19⟩, (flush1_1 ⟨19, h19⟩).mpr rfl, by
      show i ∈ ((View.whole main_v49_0).slice (win1_1.rect ⟨19, h19⟩)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index ⟨19, h19⟩ 0 * 1 ≤ (i 0 : Nat) ∧ (i 0 : Nat) < win1_1.index ⟨19, h19⟩ 0 * 1 + 1
        rw [(idx_out1 ⟨19, h19⟩).1]; omega
      | ⟨1, _⟩ =>
        show win1_1.index ⟨19, h19⟩ 1 * 128 ≤ (i 1 : Nat) ∧ (i 1 : Nat) < win1_1.index ⟨19, h19⟩ 1 * 128 + 128
        rw [(idx_out1 ⟨19, h19⟩).2]; omega⟩

private theorem final_sumsq (c : Dev nD) : sumsqArr V c = lastSumsq V c :=
  (dat1 (F := Ideal) V c).arrAt_eq_of_cover 2 (lastSumsq V c) (flushed_sumsq V c) fun i =>
    ⟨⟨19, h19⟩, (flush1_2 ⟨19, h19⟩).mpr rfl, by
      show i ∈ ((View.whole main_v49_1).slice (win1_2.rect ⟨19, h19⟩)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index ⟨19, h19⟩ 0 * 1 ≤ (i 0 : Nat) ∧ (i 0 : Nat) < win1_2.index ⟨19, h19⟩ 0 * 1 + 1
        rw [(idx_out2 ⟨19, h19⟩).1]; omega
      | ⟨1, _⟩ =>
        show win1_2.index ⟨19, h19⟩ 1 * 128 ≤ (i 1 : Nat) ∧ (i 1 : Nat) < win1_2.index ⟨19, h19⟩ 1 * 128 + 128
        rw [(idx_out2 ⟨19, h19⟩).2]; omega⟩

/-- Region 1 leaves in its first output the sum of every column of its input array over all rows. -/
theorem sum_value (c : Dev nD) (j : Fin 128) :
    sumArr V c (ix2 (0 : Fin 1) j) = ∑ r : Fin 100000, aArr V c (ix2 r j) := by
  rw [final_sum V c]
  exact (sum_inv V c j 19 h19).trans (sum_rows_all (aArr V c) j)

/-- Region 1 leaves in its second output the sum of every column's squares over all rows. -/
theorem sumsq_value (c : Dev nD) (j : Fin 128) :
    sumsqArr V c (ix2 (0 : Fin 1) j) = ∑ r : Fin 100000, aArr V c (ix2 r j) * aArr V c (ix2 r j) := by
  rw [final_sumsq V c]
  exact (sumsq_inv V c j 19 h19).trans (sum_rows_all (fun i => aArr V c i * aArr V c i) j)

end Cert.KernelIdeal.Reg1

end
-- ==== Proof.KernelReg2.lean ====
import proofs.«171873_j11338713662112_1_alg».proof.Proof.Gen.KernelIdeal.Frame
import proofs.«171873_j11338713662112_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem ValueIdx
open Idealize.ShloMosaic.Pipeline (Dat Cfg Window)

variable (V : (c : Dev nD) → (b : Ref sig .tc) → Buf (Elt Ideal) ((c : Thread nD τ).loc b))

/-- The region's input array, its four row vectors and its output array after the last write-back, at their
    literal types. -/
abbrev aArr (c : Dev nD) : S100000x128.Idx → EReal := V c main_v48
abbrev meanRow (c : Dev nD) : S1x128.Idx → EReal := V c main_v61
abbrev invRow (c : Dev nD) : S1x128.Idx → EReal := V c main_v62
abbrev scaleRow (c : Dev nD) : S1x128.Idx → EReal := V c main_v63
abbrev shiftRow (c : Dev nD) : S1x128.Idx → EReal := V c main_v64
abbrev outArr (c : Dev nD) : S100000x128.Idx → EReal := (dat2 (F := Ideal) V c).arrAt 5 cfg2.N

/-! ## The body's arithmetic at one entry

The body casts each operand to its own shape (nothing), repeats each of the four row vectors down the 5000 rows of
the block, and combines them entry by entry: subtract, multiply, multiply, add, then the maximum with the zero
constant. At entry (p, q) of the block a repeated row vector reads its entry (0, q). -/

/-- The body's stored value at entry (p, q) of a block: the block's entry less the first row vector's entry in
    column q, times the second's and the third's, plus the fourth's, clamped below at zero. -/
private theorem payload_at (x0 : Vec Ideal S5000x128 .f32) (x1 x2 x3 x4 : Vec Ideal S1x128 .f32) (p : Fin 5000) (q : Fin 128) :
    k2_pay1 (F := Ideal) x0 x1 x2 x3 x4 (ix2 p q)
      = max ((x0 (ix2 p q) - x1 (ix2 (0 : Fin 1) q)) * x2 (ix2 (0 : Fin 1) q) * x3 (ix2 (0 : Fin 1) q)
              + x4 (ix2 (0 : Fin 1) q)) 0 := by
  unfold k2_pay1
  simp only [shapeCast_self, maximumf_apply, addf_apply, mulf_apply, subf_apply, broadcast_apply,
    broadcastTo_1b_ab_apply]
  exact congrArg (max _) Ideal.ofBits_zero_f32

/-- The same at any index `y` of the block, its column being `y 1`. -/
private theorem payload_apply (x0 : Vec Ideal S5000x128 .f32) (x1 x2 x3 x4 : Vec Ideal S1x128 .f32) (y : S5000x128.Idx) :
    k2_pay1 (F := Ideal) x0 x1 x2 x3 x4 y
      = max ((x0 y - x1 (ix2 (0 : Fin 1) (y 1 : Fin 128))) * x2 (ix2 (0 : Fin 1) (y 1 : Fin 128))
              * x3 (ix2 (0 : Fin 1) (y 1 : Fin 128)) + x4 (ix2 (0 : Fin 1) (y 1 : Fin 128))) 0 := by
  obtain ⟨p, q, rfl⟩ : ∃ (p : Fin 5000) (q : Fin 128), y = ix2 p q := ⟨y 0, y 1, eq_ix2 y⟩
  exact payload_at x0 x1 x2 x3 x4 p q

/-- The entry formula respects equality of each of its ingredients: the array's entry, the four row vectors and
    the column. -/
private theorem entry_congr {a a' : EReal} {v1 v1' v2 v2' v3 v3' v4 v4' : S1x128.Idx → EReal} {q q' : Fin 128}
    (ha : a = a') (h1 : v1 = v1') (h2 : v2 = v2') (h3 : v3 = v3') (h4 : v4 = v4') (hq : q = q') :
    max ((a - v1 (ix2 (0 : Fin 1) q)) * v2 (ix2 (0 : Fin 1) q) * v3 (ix2 (0 : Fin 1) q) + v4 (ix2 (0 : Fin 1) q)) 0
      = max ((a' - v1' (ix2 (0 : Fin 1) q')) * v2' (ix2 (0 : Fin 1) q') * v3' (ix2 (0 : Fin 1) q')
              + v4' (ix2 (0 : Fin 1) q')) 0 := by
  subst ha h1 h2 h3 h4 hq; rfl

/-! ## The whole output array as one function of the five arrays -/

/-- Entry (r, j) of the result: the input's entry (r, j) less the first row vector's entry j, times the second's
    and the third's, plus the fourth's, clamped below at zero. The row vectors are read in the entry's column. -/
private abbrev bnRelu (a : S100000x128.Idx → EReal) (v1 v2 v3 v4 : S1x128.Idx → EReal) : S100000x128.Idx → EReal :=
  fun i => max ((a i - v1 (ix2 (0 : Fin 1) (i 1 : Fin 128))) * v2 (ix2 (0 : Fin 1) (i 1 : Fin 128))
                  * v3 (ix2 (0 : Fin 1) (i 1 : Fin 128)) + v4 (ix2 (0 : Fin 1) (i 1 : Fin 128))) 0

/-- The offsets (0, 0) are zero on every axis. -/
private theorem zeroOffsets : (![0, 0] : Fin 2 → Nat) = fun _ => 0 :=
  funext fun a => by match a with | ⟨0, _⟩ => rfl | ⟨1, _⟩ => rfl

/-- Which block each operand reads at grid point `t`, decided over the twenty points: the input array's block is
    the output's; each row vector's block is always block (0, 0), the whole vector; the output's block is row
    block `t`, column block 0. -/
private theorem blockIndices : ∀ t : Fin cfg2.N,
    win2_0.index t (0 : Fin 2) = win2_5.index t (0 : Fin 2) ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- At every grid point the first row vector's block is the whole vector: block (0, 0) of a [1,128] array cut in
    [1,128] blocks, an entry of the block sitting at 0 · size + its own coordinate. -/
private theorem rowBlock1 (c : Dev nD) (t : Fin cfg2.N) : (iblk2 V c 1 t : Vec Ideal S1x128 .f32) = meanRow V c := by
  obtain ⟨-, -, e10, e11, -⟩ := blockIndices t
  funext y
  unfold iblk2
  rw [View.read_apply]
  refine congrArg (meanRow V c) (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The second row vector's block is the whole vector, likewise. -/
private theorem rowBlock2 (c : Dev nD) (t : Fin cfg2.N) : (iblk2 V c 2 t : Vec Ideal S1x128 .f32) = invRow V c := by
  obtain ⟨-, -, -, -, e20, e21, -⟩ := blockIndices t
  funext y
  unfold iblk2
  rw [View.read_apply]
  refine congrArg (invRow V c) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The third row vector's block is the whole vector, likewise. -/
private theorem rowBlock3 (c : Dev nD) (t : Fin cfg2.N) : (iblk2 V c 3 t : Vec Ideal S1x128 .f32) = scaleRow V c := by
  obtain ⟨-, -, -, -, -, -, e30, e31, -⟩ := blockIndices t
  funext y
  unfold iblk2
  rw [View.read_apply]
  refine congrArg (scaleRow V c) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The fourth row vector's block is the whole vector, likewise. -/
private theorem rowBlock4 (c : Dev nD) (t : Fin cfg2.N) : (iblk2 V c 4 t : Vec Ideal S1x128 .f32) = shiftRow V c := by
  obtain ⟨-, -, -, -, -, -, -, -, e40, e41, -⟩ := blockIndices t
  funext y
  unfold iblk2
  rw [View.read_apply]
  refine congrArg (shiftRow V c) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What grid point `t` writes back is block `t` of `bnRelu` of the five arrays as the region finds them. The body's
    one store fills its buffer with the stored value of the loaded blocks; entry `y` of the input's block is the
    input array at the same place as entry `y` of the output's block (the two move together, rows 5000 t + y₀, column
    y₁); the row vectors' blocks are the vectors; and the column of that place is `y`'s. -/
private theorem flushed_eq (c : Dev nD) (t : Fin cfg2.N) :
    (dat2 (F := Ideal) V c).flushed 5 t
      = ((cfg2.win 5).blk t).view.read (Elt Ideal)
          (bnRelu (aArr V c) (meanRow V c) (invRow V c) (scaleRow V c) (shiftRow V c)) := by
  show (cfg2.win 5).cut (grid2.coords t) ((dat2 (F := Ideal) V c).after 5 t) = _
  rw [after2_5]
  unfold out2_5
  rw [View.canon_unit_zero zeroOffsets]
  simp only [View.ld_unit_zero (S := S5000x128) zeroOffsets, View.ld_unit_zero (S := S1x128) zeroOffsets]
  obtain ⟨e00, e01, e10, e11, e20, e21, e30, e31, e40, e41, e50, e51⟩ := blockIndices t
  funext y
  refine (payload_apply (iblk2 V c 0 t) (iblk2 V c 1 t) (iblk2 V c 2 t) (iblk2 V c 3 t) (iblk2 V c 4 t)
    ((cfg2.win 5).xinj (grid2.coords t) y)).trans ?_
  rw [View.read_apply]
  have hemb : ((cfg2.win 0).blk t).view.emb ((cfg2.win 5).xinj (grid2.coords t) y) = ((cfg2.win 5).blk t).view.emb y := by
    funext a; apply Fin.ext
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * (y 1).val = win2_5.index t (1 : Fin 2) * 128 + 1 * (y 1).val; omega
  have hcol : (((cfg2.win 5).xinj (grid2.coords t) y) 1 : Fin 128) = ((((cfg2.win 5).blk t).view.emb y) 1 : Fin 128) := by
    apply Fin.ext
    show (y 1).val = win2_5.index t (1 : Fin 2) * 128 + 1 * (y 1).val
    omega
  exact entry_congr (congrArg (aArr V c) hemb) (rowBlock1 V c t) (rowBlock2 V c t) (rowBlock3 V c t) (rowBlock4 V c t) hcol

/-- An index of the output array is in grid point `t`'s block iff each coordinate is in the block's range on its
    axis. -/
private theorem mem_block (t : Fin cfg2.N) (i : S100000x128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v65).slice (win2_5.rect t)).set ↔ _
  rw [View.set_slice_whole, Rect.mem_set_unit]
  exact Iff.rfl

/-- The twenty blocks of 5000 rows cover the 100000 rows: row r is in the block of grid point r / 5000, and every
    grid point writes its block back. -/
private theorem covered (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, -, -, e50, e51⟩ := blockIndices t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- The output array after the last write-back is `bnRelu` of the five arrays: every written block is a block of
    that one function, and the blocks cover the array. -/
private theorem outArr_eq (c : Dev nD) :
    outArr V c = bnRelu (aArr V c) (meanRow V c) (invRow V c) (scaleRow V c) (shiftRow V c) :=
  (dat2 (F := Ideal) V c).arrAt_eq_of_cover 5
    (bnRelu (aArr V c) (meanRow V c) (invRow V c) (scaleRow V c) (shiftRow V c))
    (fun t _ => flushed_eq V c t) covered

/-- Region 2 leaves in its output array, entry by entry, the input shifted by the first row vector, scaled by the
    second and the third, shifted by the fourth, clamped below at zero. -/
theorem value (c : Dev nD) (r : Fin 100000) (j : Fin 128) :
    outArr V c (ix2 r j)
      = max ((aArr V c (ix2 r j) - meanRow V c (ix2 (0 : Fin 1) j)) * invRow V c (ix2 (0 : Fin 1) j)
              * scaleRow V c (ix2 (0 : Fin 1) j) + shiftRow V c (ix2 (0 : Fin 1) j)) 0 :=
  congrFun (outArr_eq V c) (ix2 r j)

end Cert.KernelIdeal.Reg2

end
-- ==== Proof.KernelValue.lean ====
/-
  The idealized kernel's result, entry by entry.

  Region 0 leaves the product of the two launched matrices; the host operations after it aggregate that product over
  the launched edge table and weights; region 1 sums the aggregate's columns and their squares; the host operations
  after it form each column's mean and the inverse square root of (mean of squares − squared mean + ε); region 2
  normalises, scales, shifts and clamps.  Read back through the boundaries of @main this is `Stages.kerBN` of the
  aggregate with the launched scale and shift.
-/
import proofs.«171873_j11338713662112_1_alg».proof.Proof.KernelHost
import proofs.«171873_j11338713662112_1_alg».proof.Proof.KernelReg0
import proofs.«171873_j11338713662112_1_alg».proof.Proof.KernelReg1
import proofs.«171873_j11338713662112_1_alg».proof.Proof.KernelReg2

set_option maxRecDepth 16384

noncomputable section

namespace Cert.KernelIdeal.Value

open Cert.KernelIdeal Cert.KernelIdeal.Gen Idealize.ShloMosaic Idealize.ShloMosaic.TcCoe Idealize.SL.Sem ValueIdx Cert.Stages

variable (m : (ℓ : Loc nD τ sig) → Buf (Elt Ideal) ℓ) (ρ : Dev nD → PrngReg)

instance : Cert.KernelIdeal.Facts := Cert.KernelIdeal.Gen.facts

/-- The launched arguments at their literal types. -/
abbrev xIn (c : Dev nD) : S100000x128.Idx → EReal := m ((c : Thread nD τ).loc main_arg0)
abbrev eiIn (c : Dev nD) : (⟨S2x1600000, .i32⟩ : BufTy).Contents (Elt Ideal) := m ((c : Thread nD τ).loc main_arg1)
abbrev ewIn (c : Dev nD) : (⟨S1600000, .f32⟩ : BufTy).Contents (Elt Ideal) := m ((c : Thread nD τ).loc main_arg2)
abbrev wIn (c : Dev nD) : S128x128.Idx → EReal := m ((c : Thread nD τ).loc main_arg3)
abbrev scaleIn (c : Dev nD) : S128.Idx → EReal := m ((c : Thread nD τ).loc main_arg4)
abbrev shiftIn (c : Dev nD) : S128.Idx → EReal := m ((c : Thread nD τ).loc main_arg5)

/-- The product of the two launched matrices. -/
def prod (c : Dev nD) : S100000x128.Idx → EReal :=
  fun i => ∑ k : Fin 128, xIn m c (ix2 (i 0) k) * wIn m c (ix2 k (i 1))

/-- The aggregate of that product over the launched edge table and weights. -/
def agg (c : Dev nD) : S100000x128.Idx → EReal := aggregate (F := Ideal) (eiIn m c) (ewIn m c) (prod m c)

/-- Region 0's output array at its exit is the product. -/
theorem V6_v35 (c : Dev nD) : (V6 m ρ c main_v35 : S100000x128.Idx → EReal) = prod m c := by
  funext i
  have hi : i = ix2 (i 0) (i 1) := eq_ix2 i
  have h0 := Reg0.value (V5 m ρ) c (i 0) (i 1)
  have hx : Reg0.xArr (V5 m ρ) c = xIn m c := HostVal.V5_arg0 m ρ c
  have hw : Reg0.wArr (V5 m ρ) c = wIn m c := HostVal.V5_arg3 m ρ c
  have ho : Reg0.outArr (V5 m ρ) c = (V6 m ρ c main_v35 : S100000x128.Idx → EReal) := (W6_arr m ρ c 2).symm
  rw [hx, hw, ho] at h0
  rw [hi]
  exact h0

/-- Region 1 and region 2 are entered with the aggregate. -/
theorem V7_agg (c : Dev nD) : (V7 m ρ c main_v48 : S100000x128.Idx → EReal) = agg m c := by
  have h := HostVal.V7_v48 m ρ c
  rw [h]
  unfold agg
  rw [← V6_v35 m ρ c]

theorem V9_agg (c : Dev nD) : (V9 m ρ c main_v48 : S100000x128.Idx → EReal) = agg m c :=
  (HostVal.V9_v48 m ρ c).trans (V7_agg m ρ c)

/-- Region 1's two outputs at its exit: the aggregate's column sums and column sums of squares. -/
theorem V8_sum (c : Dev nD) (j : Fin 128) : (V8 m ρ c main_v49_0 (ix2 (0 : Fin 1) j) : EReal) = colSum (agg m c) j := by
  have h := Reg1.sum_value (V7 m ρ) c j
  have ha : Reg1.aArr (V7 m ρ) c = agg m c := V7_agg m ρ c
  have hs : Reg1.sumArr (V7 m ρ) c = (V8 m ρ c main_v49_0 : S1x128.Idx → EReal) := (W8_arr m ρ c 1).symm
  rw [ha, hs] at h
  exact h

theorem V8_sumsq (c : Dev nD) (j : Fin 128) : (V8 m ρ c main_v49_1 (ix2 (0 : Fin 1) j) : EReal) = colSumSq (agg m c) j := by
  have h := Reg1.sumsq_value (V7 m ρ) c j
  have ha : Reg1.aArr (V7 m ρ) c = agg m c := V7_agg m ρ c
  have hs : Reg1.sumsqArr (V7 m ρ) c = (V8 m ρ c main_v49_1 : S1x128.Idx → EReal) := (W8_arr m ρ c 2).symm
  rw [ha, hs] at h
  exact h

/-- THE RESULT: the last boundary's contents at the result buffer, entry by entry. -/
theorem out_value (c : Dev nD) (r : Fin 100000) (j : Fin 128) :
    (W10 m ρ c (Proc.devRef .tc main_v65) (ix2 r j) : EReal) = kerBN (agg m c) (scaleIn m c) (shiftIn m c) r j := by
  have h := Reg2.value (V9 m ρ) c r j
  have ho : Reg2.outArr (V9 m ρ) c = (W10 m ρ c (Proc.devRef .tc main_v65) : S100000x128.Idx → EReal) := (W10_arr m ρ c 5).symm
  have ha : Reg2.aArr (V9 m ρ) c = agg m c := V9_agg m ρ c
  have h1 : Reg2.meanRow (V9 m ρ) c (ix2 (0 : Fin 1) j) = colMean (agg m c) j := by
    show (V9 m ρ c main_v61 (ix2 (0 : Fin 1) j) : EReal) = _
    rw [HostValI.V9_v61 m ρ c j, V8_sum m ρ c j]; rfl
  have h2 : Reg2.invRow (V9 m ρ) c (ix2 (0 : Fin 1) j)
      = Ideal.rsqrt (Ideal.div (colSumSq (agg m c) j) nRows - colMean (agg m c) j * colMean (agg m c) j + epsBN) := by
    show (V9 m ρ c main_v62 (ix2 (0 : Fin 1) j) : EReal) = _
    rw [HostValI.V9_v62 m ρ c j, V8_sum m ρ c j, V8_sumsq m ρ c j]; rfl
  have h3 : Reg2.scaleRow (V9 m ρ) c (ix2 (0 : Fin 1) j) = scaleIn m c (ix1 j) := HostValI.V9_v63 m ρ c j
  have h4 : Reg2.shiftRow (V9 m ρ) c (ix2 (0 : Fin 1) j) = shiftIn m c (ix1 j) := HostValI.V9_v64 m ρ c j
  rw [ho, ha, h1, h2, h3, h4] at h
  exact h

end Cert.KernelIdeal.Value

end
-- ==== Proof.RefRun.lean ====
import proofs.«171873_j11338713662112_1_alg».proof.Proof.Gen.ReferenceIdeal
import Idealize.ShloMosaic.Lib.StableHlo.Run
import Idealize.ShloMosaic.Lib.Pipeline.Frame
import Idealize.ShloMosaic.Lib.Pipeline.Regions

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations up to and including the aggregation (the result of `%48`), the outlined functions' operations
    listed at their calls, in order: 66 operations, the two `@_where` calls' three each among them. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    -- the operations of %14 = func.call @_where(%13, %11, %cst_2), over that call's buffers
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v13 : StableHlo.TRef sig ⟨S100000, .i1⟩) (.of main_v11 : StableHlo.TRef sig ⟨S100000, .f32⟩) (.of main_call0_v1 : StableHlo.TRef sig ⟨S100000, .f32⟩) (.of main_v14 : StableHlo.TRef sig ⟨S100000, .f32⟩) select,
    StableHlo.nullary main_cst_3 (constant S_ .f32 0x00000000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v11 main_v15 main_v16 (cmpf .ogt : (⟨S100000, .f32⟩ : BufTy).Contents (Elt F) → (⟨S100000, .f32⟩ : BufTy).Contents (Elt F) → (⟨S100000, .i1⟩ : BufTy).Contents (Elt F)),
    StableHlo.unary main_v14 main_v17 (Host.rsqrt : (⟨S100000, .f32⟩ : BufTy).Contents (Elt F) → (⟨S100000, .f32⟩ : BufTy).Contents (Elt F)),
    StableHlo.nullary main_cst_4 (constant S_ .f32 0x00000000#32),
    -- the operations of %18 = func.call @_where(%16, %17, %cst_4), over that call's buffers
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v16 : StableHlo.TRef sig ⟨S100000, .i1⟩) (.of main_v17 : StableHlo.TRef sig ⟨S100000, .f32⟩) (.of main_call1_v1 : StableHlo.TRef sig ⟨S100000, .f32⟩) (.of main_v18 : StableHlo.TRef sig ⟨S100000, .f32⟩) select,
    StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v5 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v21 (broadcastInDim S1700000 ![] bcast_S_S1700000 : (⟨S_, .i32⟩ : BufTy).Contents (Elt F) → (⟨S1700000, .i32⟩ : BufTy).Contents (Elt F)),
    StableHlo.binary main_v5 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v5 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v8 main_v26 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v29 (broadcastInDim S1700000 ![] bcast_S_S1700000 : (⟨S_, .i32⟩ : BufTy).Contents (Elt F) → (⟨S1700000, .i32⟩ : BufTy).Contents (Elt F)),
    StableHlo.binary main_v6 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)),
    StableHlo.binary main_arg0 main_arg3 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_8 (constantI S_ 32 0#32),
    StableHlo.unary main_c_8 main_v36 (broadcastInDim S1700000 ![] bcast_S_S1700000 : (⟨S_, .i32⟩ : BufTy).Contents (Elt F) → (⟨S1700000, .i32⟩ : BufTy).Contents (Elt F)),
    StableHlo.binary main_v5 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v38 (broadcastInDim S1700000 ![] bcast_S_S1700000 : (⟨S_, .i32⟩ : BufTy).Contents (Elt F) → (⟨S1700000, .i32⟩ : BufTy).Contents (Elt F)),
    StableHlo.binary main_v5 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v34 main_v43 (broadcastInDim S1700000x1 ![0] bcast_S1700000_S1700000x1_0 : (⟨S1700000, .f32⟩ : BufTy).Contents (Elt F) → (⟨S1700000x1, .f32⟩ : BufTy).Contents (Elt F)),
    StableHlo.unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    StableHlo.nullary main_cst_10 (constant S_ .f32 0x00000000#32),
    StableHlo.unary main_cst_10 main_v46 (broadcastInDim S100000x128 ![] bcast_S_S100000x128 : (⟨S_, .f32⟩ : BufTy).Contents (Elt F) → (⟨S100000x128, .f32⟩ : BufTy).Contents (Elt F)),
    StableHlo.unary main_v6 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- @main's remaining operations: the batch statistics, the normalisation and the clamp: 47 operations, `@_var`'s
    nineteen with its `@_where_0`'s three, and `@relu`'s three among them. -/
abbrev opsB : List (HloOp τ sig (Elt F)) :=
  [ StableHlo.nullary main_cst_11 (constant S_ .f32 0x00000000#32),
    StableHlo.binary main_v48 main_cst_11 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    -- the operations of %52 = func.call @_var(%48, %c_13), over that call's buffers
    StableHlo.TRef.nullary (.of main_call2_cst : StableHlo.TRef sig ⟨S_, .f32⟩) (constant S_ .f32 0x00000000#32),
    StableHlo.TRef.binary (.of main_v48 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v48 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    -- the operations of %52 = func.call @_var(%48, %c_13), within it %13 = func.call @_where_0(%12, %11, %cst_4), over that call's buffers
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v52 : StableHlo.TRef sig ⟨S128, .f32⟩) (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    -- the operations of %68 = func.call @relu(%67), over that call's buffers
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v67 : StableHlo.TRef sig ⟨S100000x128, .f32⟩) (.of main_call3_v0 : StableHlo.TRef sig ⟨S100000x128, .f32⟩) (.of main_v68 : StableHlo.TRef sig ⟨S100000x128, .f32⟩) maximumf ]

/-- @main is that straight line: its two windows, the outlined functions' definitions unfolded at their calls and the
    calls' records at their fields; both sides unfold to one and the same chain of `hlo` steps (sequencing
    reassociates by computation), so the equation holds by reflexivity. -/
theorem main_eq (c : Dev nD) : main (F := F) c = seq (opsA ++ opsB) := by
  chain_rfl

theorem scopedRefs_eq : (Finset.univ.filter fun b : Ref sig .tc => b.isScoped) = ∅ := by decide
theorem scopedSems_eq : (Finset.univ.filter fun sm : SemLoc sig => sm.isScoped .tc) = ∅ := by decide

/-- Each operation of the first stretch touches TensorCore references only. -/
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..⟩

/-- Each operation of the second stretch touches TensorCore references only. -/
theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

/-- So does each operation of the whole line. -/
theorem ops_sub : (opsA ++ opsB : List (HloOp τ sig (Elt F))).Forall fun op => op.bufs ⊆ tcRefs τ sig :=
  List.forall_append.mpr ⟨opsA_sub, opsB_sub⟩

/-- Every weakly fair execution of the reference's @main terminates, and every buffer ends at the fold of the two
    stretches of operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsB (after opsA (launchContents m c)) (b : DevRef τ sig) := by
  have h := run_seq scopedRefs_eq scopedSems_eq defs main (fun _ => opsA ++ opsB) main_eq (fun _ => ops_sub) m ρ
  simp only [after_append] at h
  exact h

end Cert.ReferenceIdeal.HandRun

end
-- ==== Proof.RefValue.lean ====
import proofs.«171873_j11338713662112_1_alg».proof.Proof.Gen.ReferenceIdeal
import proofs.«171873_j11338713662112_1_alg».proof.Proof.Gen.KernelIdeal
import proofs.«171873_j11338713662112_1_alg».proof.Proof.Stages
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws
import proofs.«171873_j11338713662112_1_alg».proof.Proof.RefRun

set_option maxRecDepth 16384

noncomputable section

namespace Cert.ReferenceIdeal.HandValue

open Cert.ReferenceIdeal Cert.ReferenceIdeal.Gen Idealize.ShloMosaic Idealize.ShloMosaic.TcCoe Idealize.SL.Sem Idealize.ShloMosaic.StableHlo ValueIdx
open Cert.ReferenceIdeal.HandRun Cert.Stages

/-- The shape records of the two programs are the same literals, so the shared stages, written over the kernel
    program's records, are the reference's own operations. -/
instance : Cert.KernelIdeal.Facts := Cert.KernelIdeal.Gen.facts

section Generic
variable {F : FTy → Type} [FloatOps F]

/-! ## The second stretch as one function of the aggregation buffer, the scale and the shift

The batch statistics are taken twice: the column means that are subtracted from the entries are the column sums over
the row count, and the variance forms the same quotient again on a one-row matrix, subtracts it, squares, sums down
the columns and divides by the row count less an integer zero, with a guard on that divisor's sign. -/

/-- A row vector laid over all rows. -/
private def rowB {α : Type} (v : S128.Idx → α) : S100000x128.Idx → α :=
  broadcastInDim S100000x128 ![0, 1] bcast_S1x128_S100000x128_0_1 (broadcastInDim S1x128 ![1] bcast_S128_S1x128_1 v)

/-- The column sums from the zero word. -/
private def colSumV (A : FVec F S100000x128 .f32) : FVec F S128 .f32 :=
  Host.reduceAdd A (constant S_ .f32 0x00000000#32) reducesTo_S100000x128_S128_d0 h_S_

/-- The column means that are subtracted from the entries: the sums over the row count's word. -/
private def refMean (A : FVec F S100000x128 .f32) : FVec F S128 .f32 :=
  Host.divf (colSumV A) (broadcastInDim S128 ![] bcast_S_S128 (constant S_ .f32 0x47C35000#32))

/-- The column means as the variance forms them: the same quotient taken on a one-row matrix. -/
private def varMean (A : FVec F S100000x128 .f32) : FVec F S1x128 .f32 :=
  Host.divf (broadcastInDim S1x128 ![1] bcast_S128_S1x128_1 (colSumV A))
    (broadcastInDim S1x128 ![] bcast_S_S1x128 (constant S_ .f32 0x47C35000#32))

/-- The variance's divisor: the row count's word less the integer zero. -/
private def varCount : FVec F S_ .f32 :=
  subf (constant S_ .f32 0x47C35000#32) (sitofp (F := F) .f32 (constantI S_ 32 0#32))

/-- The deviations from the column means. -/
private def varDev (A : FVec F S100000x128 .f32) : FVec F S100000x128 .f32 :=
  subf A (broadcastInDim S100000x128 ![0, 1] bcast_S1x128_S100000x128_0_1 (varMean A))

/-- The column variances: the mean squared deviation where the divisor is positive, the not-a-number word elsewhere. -/
private def refVar (A : FVec F S100000x128 .f32) : FVec F S128 .f32 :=
  select (broadcastInDim S128 ![] bcast_S_S128 (cmpf (F := F) .ogt varCount (constant S_ .f32 0x00000000#32)))
    (Host.divf (Host.reduceAdd (mulf (varDev A) (varDev A)) (constant S_ .f32 0x00000000#32) reducesTo_S100000x128_S128_d0 h_S_)
      (broadcastInDim S128 ![] bcast_S_S128 varCount))
    (broadcastInDim S128 ![] bcast_S_S128 (constant S_ .f32 0x7FC00000#32))

/-- The whole second stretch: centre, scale by the inverse root of the stabilised variance, scale, shift, clamp. -/
private def refTail (A : FVec F S100000x128 .f32) (γ β : FVec F S128 .f32) : FVec F S100000x128 .f32 :=
  maximumf
    (addf
      (mulf
        (mulf (subf A (rowB (refMean A)))
          (rowB (Host.rsqrt (addf (refVar A) (broadcastInDim S128 ![] bcast_S_S128 (constant S_ .f32 0x3727C5AC#32))))))
        (rowB γ))
      (rowB β))
    (broadcastInDim S100000x128 ![] bcast_S_S100000x128 (constant S_ .f32 0x00000000#32))

set_option maxHeartbeats 4000000 in
/-- The second stretch leaves that function of the aggregation buffer, the scale and the shift in the result. -/
private theorem afterB_v68_eq (W : Valuation τ sig (Elt F)) :
    after opsB W (main_v68 : DevRef τ sig)
      = refTail (W (main_v48 : DevRef τ sig)) (W (main_arg4 : DevRef τ sig)) (W (main_arg5 : DevRef τ sig)) := by
  after_results_simp
  rfl

set_option maxHeartbeats 4000000 in
/-- After the first stretch the aggregation buffer holds `aggregate` of the launched edge table and weights and of
    the matrix product of the two launched matrices; the arguments are untouched. Operation for operation the first
    stretch is the stages of the shared specification: the edge lists with their self loops, the weighted degree, its
    guarded inverse square root, the edge normalisation, the matrix product, and the scatter of the scaled rows. -/
theorem afterA_v48 (V : Valuation τ sig (Elt F)) :
    after opsA V (main_v48 : DevRef τ sig)
      = Cert.Stages.aggregate (V (main_arg1 : DevRef τ sig)) (V (main_arg2 : DevRef τ sig))
          (Host.dotGeneral dot_S100000x128_S128x128_S100000x128_1_0_0_1_n_n none (V (main_arg0 : DevRef τ sig)) (V (main_arg3 : DevRef τ sig))) := by
  after_results_simp
  -- the two pieces of each concatenation are results of earlier operations too, read the same way
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
theorem afterA_arg (V : Valuation τ sig (Elt F)) :
    after opsA V (main_arg0 : DevRef τ sig) = V (main_arg0 : DevRef τ sig)
    ∧ after opsA V (main_arg1 : DevRef τ sig) = V (main_arg1 : DevRef τ sig)
    ∧ after opsA V (main_arg2 : DevRef τ sig) = V (main_arg2 : DevRef τ sig)
    ∧ after opsA V (main_arg3 : DevRef τ sig) = V (main_arg3 : DevRef τ sig)
    ∧ after opsA V (main_arg4 : DevRef τ sig) = V (main_arg4 : DevRef τ sig)
    ∧ after opsA V (main_arg5 : DevRef τ sig) = V (main_arg5 : DevRef τ sig) := by
  refine ⟨?_, ?_, ?_, ?_, ?_, ?_⟩ <;> after_results_simp

set_option maxHeartbeats 4000000 in
theorem afterB_arg (W : Valuation τ sig (Elt F)) :
    after opsB W (main_arg0 : DevRef τ sig) = W (main_arg0 : DevRef τ sig)
    ∧ after opsB W (main_arg1 : DevRef τ sig) = W (main_arg1 : DevRef τ sig)
    ∧ after opsB W (main_arg2 : DevRef τ sig) = W (main_arg2 : DevRef τ sig)
    ∧ after opsB W (main_arg3 : DevRef τ sig) = W (main_arg3 : DevRef τ sig)
    ∧ after opsB W (main_arg4 : DevRef τ sig) = W (main_arg4 : DevRef τ sig)
    ∧ after opsB W (main_arg5 : DevRef τ sig) = W (main_arg5 : DevRef τ sig) := by
  refine ⟨?_, ?_, ?_, ?_, ?_, ?_⟩ <;> after_results_simp
end Generic

/-! ## The second stretch read at an entry, on the extended reals -/

/-- The row count's word denotes the real 100000, which is above zero. -/
private theorem nRows_pos : (0 : EReal) < Ideal.ofBits .f32 0x47C35000#32 := by
  have h : Ideal.ofBits .f32 0x47C35000#32 = ((100000 : ℝ) : EReal) := by
    simp [Ideal.ofBits, Ideal.ieee, -EReal.coe_mul]; norm_num
  rw [h]; exact EReal.coe_pos.mpr (by norm_num)

/-- A row vector laid over all rows reads, at (r, j), its entry j. -/
private theorem rowB_apply {α : Type} (v : S128.Idx → α) (r : Fin 100000) (j : Fin 128) :
    rowB v (ix2 r j) = v (ix1 j) := by
  unfold rowB
  refine (broadcastInDim_apply ![0, 1] bcast_S1x128_S100000x128_0_1 _ (ix2 r j) (ix2 (0 : Fin 1) j) (fun a => by
    match a with
    | ⟨0, _⟩ => rfl
    | ⟨1, _⟩ => rfl)).trans ?_
  exact broadcastInDim_apply ![1] bcast_S128_S1x128_1 v (ix2 (0 : Fin 1) j) (ix1 j) (fun a => by
    match a with
    | ⟨0, _⟩ => rfl)

/-- A column sum from an initial value: the initial value plus the sum down the column. -/
private theorem colReduce_apply (x : FVec Ideal S100000x128 .f32) (init : FVec Ideal S_ .f32)
    (h' : S100000x128.ReducesTo [0] S128) (hu : 0 < S_.numel) (j : Fin 128) :
    (Host.reduceAdd (F := Ideal) x init h' hu (ix1 j) : EReal) = init ix0 + ∑ i : Fin 100000, (x (ix2 i j) : EReal) := by
  have hR : S100000x128.Reduces [0] S128 := by decide
  have e0 : init (Shape.Idx.first hu) = init ix0 := congrArg init (eq_ix0 _)
  have e1 : ∀ i : Fin 100000, hR.lift (ix1 j) i = ix2 i j := fun i => by
    funext a; apply Fin.ext
    match a with
    | ⟨0, _⟩ => rfl
    | ⟨1, _⟩ => rfl
  rw [hostReduceAdd_apply, Ideal.hostReduceAdd_single h' hR, e0]
  exact congrArg (fun t : EReal => init ix0 + t) (Finset.sum_congr rfl fun i _ => congrArg x (e1 i))

private theorem colSumV_apply (A : FVec Ideal S100000x128 .f32) (j : Fin 128) :
    (colSumV A (ix1 j) : EReal) = colSum A j := by
  unfold colSumV colSum
  rw [colReduce_apply, constant_apply, Ideal.ofBits_zero_f32, zero_add]

private theorem refMean_apply (A : FVec Ideal S100000x128 .f32) (j : Fin 128) :
    (refMean A (ix1 j) : EReal) = colMean A j := by
  unfold refMean colMean nRows
  rw [hostDivf_apply, colSumV_apply, broadcastInDim_scalar_apply, constant_apply]

private theorem varMean_apply (A : FVec Ideal S100000x128 .f32) (j : Fin 128) :
    (varMean A (ix2 (0 : Fin 1) j) : EReal) = colMean A j := by
  unfold varMean colMean nRows
  have e := broadcastInDim_apply ![1] bcast_S128_S1x128_1 (colSumV A) (ix2 (0 : Fin 1) j) (ix1 j) (fun a => by
    match a with
    | ⟨0, _⟩ => rfl)
  rw [hostDivf_apply, broadcastInDim_scalar_apply, constant_apply, e, colSumV_apply]

/-- The variance's divisor is the row count: the integer zero converts to the real zero. -/
private theorem varCount_apply : (varCount (F := Ideal) ix0 : EReal) = nRows := by
  show Ideal.ofBits .f32 0x47C35000#32 - (((0#32 : BitVec 32).toInt : ℝ) : EReal) = nRows
  have h0 : (((0#32 : BitVec 32).toInt : ℝ) : EReal) = 0 := by simp
  rw [h0, sub_zero]; rfl

private theorem varDev_apply (A : FVec Ideal S100000x128 .f32) (i : Fin 100000) (j : Fin 128) :
    (varDev A (ix2 i j) : EReal) = A (ix2 i j) - colMean A j := by
  unfold varDev
  have e := broadcastInDim_apply ![0, 1] bcast_S1x128_S100000x128_0_1 (varMean A) (ix2 i j) (ix2 (0 : Fin 1) j) (fun a => by
    match a with
    | ⟨0, _⟩ => rfl
    | ⟨1, _⟩ => rfl)
  rw [subf_apply, e, varMean_apply]

/-- The guard on the divisor's sign holds, the row count being positive, so the variance is the quotient. -/
private theorem refVar_apply (A : FVec Ideal S100000x128 .f32) (j : Fin 128) :
    (refVar A (ix1 j) : EReal)
      = Ideal.div (∑ i : Fin 100000, (A (ix2 i j) - colMean A j) * (A (ix2 i j) - colMean A j)) nRows := by
  unfold refVar
  rw [select_apply, broadcastInDim_scalar_apply, cmpf_apply, varCount_apply, constant_apply, Ideal.ofBits_zero_f32]
  have hc : FloatOps.cmpf (F := Ideal) (φ := .f32) .ogt nRows 0 = 1#1 := by
    show Ideal.cmp .ogt nRows 0 = 1#1
    simp only [Ideal.cmp, nRows, nRows_pos, decide_true]; rfl
  rw [hc, select_one, hostDivf_apply, broadcastInDim_scalar_apply, varCount_apply, colReduce_apply, constant_apply,
    Ideal.ofBits_zero_f32, zero_add]
  exact congrArg (fun t : EReal => Ideal.div t nRows) (Finset.sum_congr rfl fun i _ => by rw [mulf_apply, varDev_apply])

/-- The second stretch at an entry is the batch normalisation, clamped at zero. -/
private theorem refTail_apply (A : FVec Ideal S100000x128 .f32) (γ β : FVec Ideal S128 .f32) (r : Fin 100000) (j : Fin 128) :
    (refTail A γ β (ix2 r j) : EReal) = refBN A γ β r j := by
  unfold refTail refBN epsBN
  rw [maximumf_apply, addf_apply, mulf_apply, mulf_apply, subf_apply, rowB_apply, rowB_apply, rowB_apply, rowB_apply,
    refMean_apply, broadcastInDim_scalar_apply, constant_apply, Ideal.ofBits_zero_f32]
  show max (((A (ix2 r j) : EReal) - colMean A j) * Ideal.rsqrt (addf (refVar A) _ (ix1 j)) * _ + _) 0 = _
  rw [addf_apply, refVar_apply, broadcastInDim_scalar_apply, constant_apply]

/-- After the second stretch the result, entry by entry, is the batch normalisation (variance as the mean squared
    deviation) of the aggregation buffer's columns with the launched scale and shift, clamped at zero. -/
theorem afterB_v68 (W : Valuation τ sig (Elt Ideal)) (r : Fin 100000) (j : Fin 128) :
    (after opsB W (main_v68 : DevRef τ sig) (ix2 r j) : EReal)
      = refBN (W (main_v48 : DevRef τ sig)) (W (main_arg4 : DevRef τ sig)) (W (main_arg5 : DevRef τ sig)) r j :=
  (congrFun (afterB_v68_eq W) (ix2 r j)).trans
    (refTail_apply (W (main_v48 : DevRef τ sig)) (W (main_arg4 : DevRef τ sig)) (W (main_arg5 : DevRef τ sig)) r j)

/-! ## The matrix product at an entry

The product contracts the left operand's columns with the right operand's rows, so at the result's entry (r, j) and
the contraction's position k the left operand is read at (r, k) and the right one at (k, j). -/

/-- The left operand's row is the result's row. -/
private theorem dot_lhs_0 (j : S100000x128.Idx) (k : dot_S100000x128_S128x128_S100000x128_1_0_0_1_n_n.contr.Idx) :
    (dot_S100000x128_S128x128_S100000x128_1_0_0_1_n_n.lhsIdx j k 0).val = (j 0).val := by
  simp [DotDims.lhsIdx, dot_S100000x128_S128x128_S100000x128_1_0_0_1_n_n]; rfl
/-- The left operand's column is the contraction's position. -/
private theorem dot_lhs_1 (j : S100000x128.Idx) (c : Fin 128) :
    (dot_S100000x128_S128x128_S100000x128_1_0_0_1_n_n.lhsIdx j
      ((contrEquiv1 dot_S100000x128_S128x128_S100000x128_1_0_0_1_n_n 128 rfl rfl).symm c) 1).val = c.val :=
  (DotDims.lhsIdx_val_of_single _ rfl j _).trans
    (contrEquiv1_symm_val dot_S100000x128_S128x128_S100000x128_1_0_0_1_n_n 128 rfl rfl c)
/-- The right operand's row is the contraction's position. -/
private theorem dot_rhs_0 (j : S100000x128.Idx) (c : Fin 128) :
    (dot_S100000x128_S128x128_S100000x128_1_0_0_1_n_n.rhsIdx j
      ((contrEquiv1 dot_S100000x128_S128x128_S100000x128_1_0_0_1_n_n 128 rfl rfl).symm c) 0).val = c.val :=
  (DotDims.rhsIdx_val_of_single _ rfl j _).trans
    (contrEquiv1_symm_val dot_S100000x128_S128x128_S100000x128_1_0_0_1_n_n 128 rfl rfl c)
/-- The right operand's column is the result's column. -/
private theorem dot_rhs_1 (j : S100000x128.Idx) (k : dot_S100000x128_S128x128_S100000x128_1_0_0_1_n_n.contr.Idx) :
    (dot_S100000x128_S128x128_S100000x128_1_0_0_1_n_n.rhsIdx j k 1).val = (j 1).val := by
  simp [DotDims.rhsIdx, dot_S100000x128_S128x128_S100000x128_1_0_0_1_n_n]; rfl

/-- The host's matrix product read at an entry. -/
theorem dot_apply (x : FVec Ideal S100000x128 .f32) (w : FVec Ideal S128x128 .f32)
    (r : Fin 100000) (j : Fin 128) :
    (Host.dotGeneral (F := Ideal) (φ₁ := .f32) (φ₂ := .f32) dot_S100000x128_S128x128_S100000x128_1_0_0_1_n_n none x w (ix2 r j) : EReal)
      = ∑ k : Fin 128, (x (ix2 r k) : EReal) * (w (ix2 k j) : EReal) := by
  show FloatOps.dotGeneral _ none _ x w (ix2 r j) = _
  rw [Ideal.dotGeneral_apply,
    ← Equiv.sum_comp (contrEquiv1 dot_S100000x128_S128x128_S100000x128_1_0_0_1_n_n 128 rfl rfl).symm]
  refine Finset.sum_congr rfl fun c _ => ?_
  have l2 : dot_S100000x128_S128x128_S100000x128_1_0_0_1_n_n.lhsIdx (ix2 r j)
      ((contrEquiv1 dot_S100000x128_S128x128_S100000x128_1_0_0_1_n_n 128 rfl rfl).symm c) = ix2 r c := by
    funext ax; apply Fin.ext
    match ax with
    | ⟨0, _⟩ => exact dot_lhs_0 _ _
    | ⟨1, _⟩ => exact dot_lhs_1 _ _
  have r2 : dot_S100000x128_S128x128_S100000x128_1_0_0_1_n_n.rhsIdx (ix2 r j)
      ((contrEquiv1 dot_S100000x128_S128x128_S100000x128_1_0_0_1_n_n 128 rfl rfl).symm c) = ix2 c j := by
    funext ax; apply Fin.ext
    match ax with
    | ⟨0, _⟩ => exact dot_rhs_0 _ _
    | ⟨1, _⟩ => exact dot_rhs_1 _ _
  rw [l2, r2]

end Cert.ReferenceIdeal.HandValue

end
-- ==== Proof.Finite.lean ====
/-
  Finiteness.  On the extended reals the laws that join the two programs (distributing a factor over a sum,
  cancelling) hold among REAL numbers only, so this module records where real numbers come from and where they stay.

  * `of_pre`: the precondition is a conjunction of five statements "every entry has absolute value below +∞";
    read back entry by entry, an extended real whose absolute value is below +∞ is neither -∞ nor +∞, hence a real.
  * `aggregate_isReal`: the aggregation keeps real numbers real, whatever integers the edge table holds.  Every stage is
    one of: an entry copied from an earlier array (a concatenation, a broadcast, a gather: which entry never matters), a
    product of two entries, an entry plus a finite sum of entries (the two accumulating scatters), or the inverse square
    root, which is applied to positive reals only (elsewhere the stage answers the constant 0).  Real numbers are closed
    under each.
-/
import proofs.«171873_j11338713662112_1_alg».proof.Proof.Stages
import proofs.«171873_j11338713662112_1_alg».proof.Pre_finite_inputs
import proofs.«171873_j11338713662112_1_alg».proof.Proof.Gen.Pre_finite_inputs
import Idealize.ShloMosaic.PureOps.Ideal.Laws
import Idealize.ShloMosaic.Lib.ReduceAll
import Idealize.ShloMosaic.Lib.ValueIdx
import Idealize.ShloMosaic.Lib.Pipeline.Value

set_option maxRecDepth 16384

noncomputable section

namespace Cert.Finite

open Idealize.ShloMosaic Cert.KernelIdeal Cert.Stages ValueIdx

/-- An extended real that is a real number. -/
def IsReal (x : EReal) : Prop := ∃ r : ℝ, x = (r : EReal)

/-! ## Real numbers are closed under sums, products and finite sums -/

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type} (s : Finset ι) (f : ι → EReal) (h : ∀ j ∈ s, IsReal (f j)) : IsReal (∑ j ∈ s, f j) := by
  classical
  induction s using Finset.induction_on with
  | empty => rw [Finset.sum_empty]; exact isReal_zero
  | insert a s ha ih =>
    rw [Finset.sum_insert ha]
    exact (h a (Finset.mem_insert_self a s)).add (ih fun j hj => h j (Finset.mem_insert_of_mem hj))

/-- The inverse square root of a positive real number is a real number. -/
theorem isReal_rsqrt {x : EReal} (hx : IsReal x) (hpos : 0 < x) : IsReal (Ideal.rsqrt x) := by
  obtain ⟨r, rfl⟩ := hx
  have hr : 0 < r := EReal.coe_pos.mp hpos
  rw [Ideal.rsqrt_coe, if_neg (not_lt.mpr hr.le), if_neg hr.ne']
  exact isReal_coe _

/-- The single-precision words of 0 and of 1 denote the real numbers 0 and 1. -/
theorem isReal_zeroWord : IsReal (Ideal.ofBits .f32 0x00000000#32) := by
  rw [Ideal.ofBits_zero_f32]; exact isReal_zero

theorem oneWord_eq : Ideal.ofBits .f32 0x3F800000#32 = 1 := by
  simp [Ideal.ofBits, Ideal.ieee, -EReal.coe_mul]; norm_num

theorem isReal_oneWord : IsReal (Ideal.ofBits .f32 0x3F800000#32) := by
  rw [oneWord_eq]; exact isReal_one

/-! ## The operations of the aggregation, one at a time, over any shapes -/

section Ops
variable {s t si su : Shape}

/-- A broadcast copies entries of its operand. -/
theorem broadcastInDim_isReal (dims : Fin s.rank → Fin t.rank) (h : s.BroadcastsInDim t dims) (x : FVec Ideal s .f32)
    (hx : ∀ i, IsReal (x i)) : ∀ j, IsReal (broadcastInDim t dims h x j) :=
  fun j => hx _

/-- A constant array holds its word at every entry. -/
theorem constant_isReal (b : BitVec 32) (hb : IsReal (Ideal.ofBits .f32 b)) :
    ∀ i, IsReal (constant (F := Ideal) s .f32 b i) :=
  fun _ => hb

/-- A gather copies entries of its operand, whichever the start indices are. -/
theorem gather_isReal {w : Nat} (d : GatherDims s si t) (x : FVec Ideal s .f32) (idx : IVec si w)
    (hx : ∀ i, IsReal (x i)) : ∀ j, IsReal (Host.gather d x idx j) :=
  fun j => hx _

/-- A product of arrays of real numbers, entry by entry. -/
theorem mulf_isReal (a b : FVec Ideal s .f32) (ha : ∀ i, IsReal (a i)) (hb : ∀ i, IsReal (b i)) :
    ∀ i, IsReal (mulf a b i) :=
  fun i => (ha i).mul (hb i)

/-- An accumulating scatter: every entry is the operand's entry plus a finite sum of update entries. -/
theorem scatterAdd_isReal {w : Nat} (d : ScatterDims s si su) (x : FVec Ideal s .f32) (idx : IVec si w) (upd : FVec Ideal su .f32)
    (hx : ∀ i, IsReal (x i)) (hu : ∀ j, IsReal (upd j)) : ∀ i, IsReal (Host.scatterAdd d x idx upd i) := by
  intro i
  show IsReal (x i + ∑ j ∈ Finset.univ.filter (fun j => d.resultIdx? j idx = some i), upd j)
  exact (hx i).add (isReal_sum _ _ fun j _ => hu j)

end Ops

variable [Cert.KernelIdeal.Facts]

/-! ## The stages of the aggregation -/

/-- The array of zeros. -/
theorem zeros1_isReal : ∀ i, IsReal (zeros1 (F := Ideal) i) :=
  fun _ => isReal_zeroWord

/-- The edge weights followed by ones: an entry below 1600000 is an edge's weight, a later one the constant 1. -/
theorem edgeW_isReal (ew : (⟨S1600000, .f32⟩ : BufTy).Contents (Elt Ideal)) (hew : ∀ i, IsReal (ew i)) :
    ∀ j, IsReal (edgeW (F := Ideal) ew j) := by
  intro j
  obtain ⟨c, rfl⟩ : ∃ c : Fin 1700000, j = ix1 c := ⟨j 0, eq_ix1 j⟩
  unfold edgeW
  by_cases hc : c.val < 1600000
  · rw [concatenate_pair_apply_left (t := S1700000) (s₁ := S1600000) (s₂ := S100000) (0 : Fin 1) ew _ _ (ix1 c) rfl
      (ix1 ⟨c.val, hc⟩) (fun b => by obtain rfl : b = 0 := Subsingleton.elim _ _; rfl)]
    exact hew _
  · rw [concatenate_pair_apply_right (t := S1700000) (s₁ := S1600000) (s₂ := S100000) (0 : Fin 1) ew _ _ (ix1 c) rfl rfl
      (ix1 ⟨c.val - 1600000, by omega⟩) (fun b hb => absurd (Subsingleton.elim _ _) hb)
      (by show c.val - 1600000 + 1600000 = c.val; omega)]
    exact isReal_oneWord

/-- The weighted degrees: zero plus a finite sum of weights and ones. -/
theorem degree_isReal (ei : (⟨S2x1600000, .i32⟩ : BufTy).Contents (Elt Ideal)) (ew : (⟨S1600000, .f32⟩ : BufTy).Contents (Elt Ideal))
    (hew : ∀ i, IsReal (ew i)) : ∀ i, IsReal (degree (F := Ideal) ei ew i) := by
  unfold degree
  exact scatterAdd_isReal _ _ _ _ zeros1_isReal (edgeW_isReal ew hew)

/-- One entry of the inverse square root stage: where the degree `x` is above 0 both selects take their first branch and
    the entry is the inverse square root of a positive real; elsewhere the outer select answers the constant 0. -/
theorem invSqrt_entry (x : EReal) (hx : IsReal x) :
    IsReal (Scalar.select (Ideal.cmp .ogt x (Ideal.ofBits .f32 0x00000000#32))
      (Ideal.rsqrt (Scalar.select (Ideal.cmp .ogt x (Ideal.ofBits .f32 0x00000000#32)) x (Ideal.ofBits .f32 0x3F800000#32)))
      (Ideal.ofBits .f32 0x00000000#32)) := by
  rw [Ideal.ofBits_zero_f32]
  by_cases h : 0 < x
  · have hc : Ideal.cmp .ogt x 0 = 1#1 := by simp [Ideal.cmp, h]
    rw [hc, select_one, select_one]
    exact isReal_rsqrt hx h
  · have hc : Ideal.cmp .ogt x 0 = 0#1 := by simp [Ideal.cmp, h]
    rw [hc, select_zero]
    exact isReal_zero

theorem invSqrtOf_isReal (d : (⟨S100000, .f32⟩ : BufTy).Contents (Elt Ideal)) (hd : ∀ i, IsReal (d i)) :
    ∀ i, IsReal (invSqrtOf (F := Ideal) d i) :=
  fun i => invSqrt_entry (d i) (hd i)

theorem invSqrtDeg_isReal (ei : (⟨S2x1600000, .i32⟩ : BufTy).Contents (Elt Ideal)) (ew : (⟨S1600000, .f32⟩ : BufTy).Contents (Elt Ideal))
    (hew : ∀ i, IsReal (ew i)) : ∀ i, IsReal (invSqrtDeg (F := Ideal) ei ew i) :=
  invSqrtOf_isReal _ (degree_isReal ei ew hew)

/-- An edge's normalisation: a product of two gathered inverse square roots and the edge's weight. -/
theorem edgeNorm_isReal (ei : (⟨S2x1600000, .i32⟩ : BufTy).Contents (Elt Ideal)) (ew : (⟨S1600000, .f32⟩ : BufTy).Contents (Elt Ideal))
    (hew : ∀ i, IsReal (ew i)) : ∀ i, IsReal (edgeNorm (F := Ideal) ei ew i) := by
  unfold edgeNorm
  exact mulf_isReal _ _ (mulf_isReal _ _ (gather_isReal _ _ _ (invSqrtDeg_isReal ei ew hew)) (edgeW_isReal ew hew))
    (gather_isReal _ _ _ (invSqrtDeg_isReal ei ew hew))

/-- The aggregation of a finite array along finite edge weights is finite, whatever the edge table holds: every
    entry is a finite sum of products of finite numbers, the inverse square root being taken of positive
    degrees only. -/
theorem aggregate_isReal (ei : (⟨S2x1600000, .i32⟩ : BufTy).Contents (Elt Ideal)) (ew : (⟨S1600000, .f32⟩ : BufTy).Contents (Elt Ideal))
    (h : (⟨S100000x128, .f32⟩ : BufTy).Contents (Elt Ideal))
    (hew : ∀ i, IsReal (ew i)) (hh : ∀ i, IsReal (h i)) :
    ∀ i, IsReal (Cert.Stages.aggregate (F := Ideal) ei ew h i) := by
  unfold Cert.Stages.aggregate
  exact scatterAdd_isReal _ _ _ _ (broadcastInDim_isReal _ _ _ (constant_isReal _ isReal_zeroWord))
    (mulf_isReal _ _ (gather_isReal _ _ _ hh)
      (broadcastInDim_isReal _ _ _ (broadcastInDim_isReal _ _ _ (edgeNorm_isReal ei ew hew))))

/-- A finite sum of products of finite numbers is finite. -/
theorem sum_mul_isReal {n : Nat} (f g : Fin n → EReal) (hf : ∀ k, IsReal (f k)) (hg : ∀ k, IsReal (g k)) :
    IsReal (∑ k : Fin n, f k * g k) := by
  exact isReal_sum _ _ fun k _ => (hf k).mul (hg k)

/-! ## The precondition read back -/

/-- The scalar shape has one index. -/
local instance subsingleton_scalarIdx : Subsingleton (⟨0, ![]⟩ : Shape).Idx := ⟨fun a b => funext fun d => d.elim0⟩

/-- An extended real whose absolute value (the larger of it and its negative) is below +∞, the value of the
    single-precision word 0x7F800000, is neither infinity: it is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact isReal_coe r

/-- One conjunct of the precondition: "all entries of |a| are below +∞" holds only of an array of real numbers. -/
theorem isReal_of_all {s : Shape} {axes : List (Fin s.rank)} (a : FVec Ideal s .f32) (dims : Fin 0 → Fin s.rank)
    (hb : (⟨0, ![]⟩ : Shape).BroadcastsInDim s dims) (hr : s.ReducesTo axes ⟨0, ![]⟩) (hu : 0 < (⟨0, ![]⟩ : Shape).numel)
    (e : Host.reduce IntOp.andi
        (cmpf .olt (Host.absf a) (broadcastInDim s dims hb (constant (F := Ideal) ⟨0, ![]⟩ .f32 0x7F800000#32)))
        (constantI ⟨0, ![]⟩ 1 1#1) hr hu ix0 = 1#1) :
    ∀ i, IsReal (a i) := by
  intro i
  exact isReal_of_abs_lt (a i) (Host.reduce_andi_all _ _ hr hu ix0 e i)

/-- The precondition read off: every entry of the three float inputs the aggregation depends on is a real number. -/
theorem of_pre [Cert.Pre_finite_inputs.Facts] (a0 : FVec Ideal Cert.Pre_finite_inputs.S100000x128 .f32) (a1 : IVec Cert.Pre_finite_inputs.S2x1600000 32)
    (a2 : FVec Ideal Cert.Pre_finite_inputs.S1600000 .f32) (a3 : FVec Ideal Cert.Pre_finite_inputs.S128x128 .f32)
    (a4 : FVec Ideal Cert.Pre_finite_inputs.S128 .f32) (a5 : FVec Ideal Cert.Pre_finite_inputs.S128 .f32)
    (hpre : Cert.Pre_finite_inputs.fn (F := Ideal) a0 a1 a2 a3 a4 a5 = (fun _ => 1#1)) :
    (∀ i, IsReal (a0 i)) ∧ (∀ i, IsReal (a2 i)) ∧ (∀ i, IsReal (a3 i)) := by
  have h0 := congrFun hpre ix0
  dsimp only [Cert.Pre_finite_inputs.fn, Cert.Pre_finite_inputs.fn_part1] at h0
  -- the conjunction, innermost first: ((((x ∧ edge_weight) ∧ W) ∧ fourth) ∧ fifth)
  obtain ⟨h1, -⟩ := IntOp.andi_eq_one.1 h0
  obtain ⟨h2, -⟩ := IntOp.andi_eq_one.1 h1
  obtain ⟨h3, e3⟩ := IntOp.andi_eq_one.1 h2
  obtain ⟨e0, e2⟩ := IntOp.andi_eq_one.1 h3
  exact ⟨isReal_of_all a0 _ _ _ _ e0, isReal_of_all a2 _ _ _ _ e2, isReal_of_all a3 _ _ _ _ e3⟩

end Cert.Finite

end
-- ==== Proof.BnAlgebra.lean ====
import proofs.«171873_j11338713662112_1_alg».proof.Proof.Stages
import proofs.«171873_j11338713662112_1_alg».proof.Proof.Finite
import Mathlib.Algebra.BigOperators.Field
import Mathlib.Tactic.FieldSimp
import Mathlib.Tactic.Ring
import Mathlib.Tactic.NormNum

set_option maxRecDepth 16384

noncomputable section

namespace Cert.BnAlgebra

open Idealize.ShloMosaic Cert.KernelIdeal Cert.Stages Cert.Finite ValueIdx

/-- The row count's single-precision word denotes the real number 100000: sign 0, biased exponent 143,
    fraction 0x435000, that is (2^23 + 4411392) · 2^(143 - 127 - 23) = 12800000 / 128. -/
theorem nRows_eq : nRows = ((100000 : ℝ) : EReal) := by
  unfold nRows
  simp [Ideal.ofBits, Ideal.ieee, -EReal.coe_mul]; norm_num

/-- The inclusion of the reals in the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals, with n > 0 values and μ their mean: the mean of the squares minus μ² is the mean of the
    squared deviations from μ.  Expanding (aᵢ − μ)² = aᵢ² − 2μaᵢ + μ² and summing gives
    ∑aᵢ² − 2μ·∑aᵢ + nμ², and ∑aᵢ = nμ. -/
private theorem var_identity (n : ℕ) (hn : (n : ℝ) ≠ 0) (a : Fin n → ℝ) :
    (∑ i, a i * a i) * (1 / (n : ℝ)) - ((∑ i, a i) * (1 / (n : ℝ))) * ((∑ i, a i) * (1 / (n : ℝ)))
      = (∑ i, (a i - (∑ k, a k) * (1 / (n : ℝ))) * (a i - (∑ k, a k) * (1 / (n : ℝ)))) * (1 / (n : ℝ)) := by
  generalize hμ : (∑ k, a k) * (1 / (n : ℝ)) = μ
  have hS : (∑ k, a k) = n * μ := by rw [← hμ]; field_simp
  have hexp : ∀ i, (a i - μ) * (a i - μ) = a i * a i - 2 * μ * a i + μ * μ := fun i => by ring
  have h1 : ∑ i, (a i - μ) * (a i - μ) = (∑ i, a i * a i) - 2 * μ * (∑ i, a i) + n * (μ * μ) := by
    simp only [hexp]
    rw [Finset.sum_add_distrib, Finset.sum_sub_distrib, ← Finset.mul_sum, Finset.sum_const, Finset.card_univ,
      Fintype.card_fin, nsmul_eq_mul]
  rw [h1, hS]; field_simp; ring

/-- On a finite array the two normalisations agree entry by entry: over the reals the mean of the squared
    deviations from the mean is the mean of the squares minus the squared mean, the divisor being the row count. -/
theorem kerBN_eq_refBN (A : S100000x128.Idx → EReal) (hA : ∀ i, IsReal (A i)) (γ β : S128.Idx → EReal)
    (r : Fin 100000) (j : Fin 128) : kerBN A γ β r j = refBN A γ β r j := by
  have hsub : Ideal.div (colSumSq A j) nRows - colMean A j * colMean A j
      = Ideal.div (∑ i : Fin 100000, (A (ix2 i j) - colMean A j) * (A (ix2 i j) - colMean A j)) nRows := by
    have hcol : ∀ i : Fin 100000, ∃ x : ℝ, A (ix2 i j) = (x : EReal) := fun i => hA (ix2 i j)
    choose a ha using hcol
    have hn : (100000 : ℝ) ≠ 0 := by norm_num
    have hmean : colMean A j = (((∑ i, a i) * (1 / (100000 : ℝ)) : ℝ) : EReal) := by
      unfold colMean colSum
      rw [nRows_eq, Ideal.div_coe hn]
      simp only [ha]
      rw [← coe_sum, ← EReal.coe_mul]
    rw [hmean]
    unfold colSumSq
    rw [nRows_eq, Ideal.div_coe hn, Ideal.div_coe hn]
    simp only [ha]
    simp only [← EReal.coe_mul, ← EReal.coe_sub, ← coe_sum]
    have hid := var_identity 100000 (by norm_num) a
    rw [Nat.cast_ofNat] at hid
    rw [hid]
  unfold kerBN refBN
  rw [hsub]

end Cert.BnAlgebra

end
-- ==== Proof.lean ====
/-
  The certificate: a graph-convolution block (x·W, the symmetric-normalised aggregation over a weighted edge list with
  self loops, batch normalisation over the 100000 rows, scale, shift, clamp at zero) as three kernel regions among
  host operations, against the same block written with jnp.

  Over the extended reals both programs compute the same aggregate A: the kernel's blockwise matrix product is the
  host's dot product entry by entry, and the gathers and scatter-adds around it are the same operations of the same
  operands.  They then normalise each column j of A with its mean μ = (∑ A(i,j)) / n and a variance formed in two
  ways: the kernel's (∑ A(i,j)²) / n − μ², from sums accumulated block by block, against the reference's
  (∑ (A(i,j) − μ)²) / n.  Over the real numbers these agree when n is the number of rows (it is: the divisor's
  single-precision word is exactly 100000); over the extended reals they need every A(i,j) to be a real number, which
  holds because the float inputs are finite: every entry of A is a finite sum of products of finite numbers, the
  inverse square root being taken of positive degrees only.  So the precondition is USED here, through the
  aggregate's finiteness.  No rewrite was applied when the kernel was idealized, so `preserves` is `True`.
-/
import proofs.«171873_j11338713662112_1_alg».proof.Defs
import proofs.«171873_j11338713662112_1_alg».proof.Proof.Gen.Kernel
import proofs.«171873_j11338713662112_1_alg».proof.Proof.Gen.Kernel.Frame
import proofs.«171873_j11338713662112_1_alg».proof.Proof.Gen.KernelIdeal
import proofs.«171873_j11338713662112_1_alg».proof.Proof.Gen.KernelIdeal.Frame
import proofs.«171873_j11338713662112_1_alg».proof.Proof.Gen.ReferenceIdeal
import proofs.«171873_j11338713662112_1_alg».proof.Proof.Gen.Pre_finite_inputs
import proofs.«171873_j11338713662112_1_alg».proof.Proof.KernelRun
import proofs.«171873_j11338713662112_1_alg».proof.Proof.KernelValue
import proofs.«171873_j11338713662112_1_alg».proof.Proof.RefRun
import proofs.«171873_j11338713662112_1_alg».proof.Proof.RefValue
import proofs.«171873_j11338713662112_1_alg».proof.Proof.Finite
import proofs.«171873_j11338713662112_1_alg».proof.Proof.BnAlgebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo ValueIdx

/-! ## The frames -/

theorem frame_k : Cert.frame_Kernel := fun m ρ _ => Cert.Kernel.Gen.frame m ρ
theorem frame_ki : Cert.frame_KernelIdeal := fun m ρ _ => Cert.KernelIdeal.Gen.frame m ρ

/-- The reference is host operations only: its run, read at the arguments, which no operation writes. -/
theorem frame_ri : Cert.frame_ReferenceIdeal := fun m ρ _ =>
  (θ_run Cert.ReferenceIdeal.defs _ _).mono (fun r h c => by
      have hA := Cert.ReferenceIdeal.HandValue.afterA_arg (F := Ideal) (launchContents m c)
      have hB := Cert.ReferenceIdeal.HandValue.afterB_arg (F := Ideal) (after Cert.ReferenceIdeal.HandRun.opsA (launchContents m c))
      exact ⟨(h c _).trans (hB.1.trans hA.1), (h c _).trans (hB.2.1.trans hA.2.1), (h c _).trans (hB.2.2.1.trans hA.2.2.1),
        (h c _).trans (hB.2.2.2.1.trans hA.2.2.2.1), (h c _).trans (hB.2.2.2.2.1.trans hA.2.2.2.2.1),
        (h c _).trans (hB.2.2.2.2.2.trans hA.2.2.2.2.2)⟩)
    (Cert.ReferenceIdeal.HandRun.run_main (F := Ideal) m ρ)

theorem preserves : Cert.preserves_Kernel_KernelIdeal := trivial

/-! ## The two results are one array -/

section Bridge

open Cert.Stages Cert.Finite

variable (m : (ℓ : Loc Cert.KernelIdeal.nD Cert.KernelIdeal.τ Cert.KernelIdeal.sig) → Buf (Elt Ideal) ℓ)

/-- Under the precondition the aggregate of the launched inputs is a real number at every entry. -/
theorem agg_isReal (hpre : Cert.Pre_KernelIdeal m) (c : Dev Cert.KernelIdeal.nD) :
    ∀ i, IsReal (Cert.KernelIdeal.Value.agg m c i) := by
  obtain ⟨hx, hew, hw⟩ := Cert.Finite.of_pre _ _ _ _ _ _ (hpre c)
  refine aggregate_isReal _ _ _ hew fun i => ?_
  exact sum_mul_isReal _ _ (fun k => hx _) (fun k => hw _)

end Bridge

/-- From memories that agree on the arguments both programs end with the same array: the kernel's entries are
    `kerBN` of the aggregate, the reference's `refBN` of the same aggregate, and the aggregate is finite. -/
theorem algebraic : Cert.algebraic_KernelIdeal_ReferenceIdeal := by
  intro m ρ m' ρ' hpre hagree
  refine ⟨fun c => Cert.KernelIdeal.Gen.W10 m ρ c (Proc.devRef .tc Cert.KernelIdeal.main_v65),
    Cert.KernelIdeal.Named.run_named m ρ, ?_⟩
  refine (θ_run Cert.ReferenceIdeal.defs _ _).mono (fun r h c => ?_) (Cert.ReferenceIdeal.HandRun.run_main (F := Ideal) m' ρ')
  have hA := Cert.ReferenceIdeal.HandValue.afterA_arg (F := Ideal) (launchContents m' c)
  have hB := Cert.ReferenceIdeal.HandValue.afterB_arg (F := Ideal) (after Cert.ReferenceIdeal.HandRun.opsA (launchContents m' c))
  refine ⟨?_, (h c _).trans (hB.1.trans hA.1), (h c _).trans (hB.2.1.trans hA.2.1), (h c _).trans (hB.2.2.1.trans hA.2.2.1),
        (h c _).trans (hB.2.2.2.1.trans hA.2.2.2.1), (h c _).trans (hB.2.2.2.2.1.trans hA.2.2.2.2.1),
        (h c _).trans (hB.2.2.2.2.2.trans hA.2.2.2.2.2)⟩
  obtain ⟨e0, e1, e2, e3, e4, e5⟩ := hagree c
  refine (h c _).trans ?_
  funext i
  have hi : i = ix2 (i 0) (i 1) := eq_ix2 i
  rw [hi]
  -- the reference's entry
  refine (Cert.ReferenceIdeal.HandValue.afterB_v68 _ (i 0) (i 1)).trans ?_
  -- the kernel's entry
  refine Eq.trans ?_ (Cert.KernelIdeal.Value.out_value m ρ c (i 0) (i 1)).symm
  -- one aggregate
  have hagg : after Cert.ReferenceIdeal.HandRun.opsA (launchContents m' c) (Cert.ReferenceIdeal.main_v48 : DevRef Cert.ReferenceIdeal.τ Cert.ReferenceIdeal.sig)
      = Cert.KernelIdeal.Value.agg m c := by
    rw [Cert.ReferenceIdeal.HandValue.afterA_v48]
    unfold Cert.KernelIdeal.Value.agg
    have hx' : launchContents m' c (Cert.ReferenceIdeal.main_arg0 : DevRef Cert.ReferenceIdeal.τ Cert.ReferenceIdeal.sig)
        = Cert.KernelIdeal.Value.xIn m c := e0
    have hw' : launchContents m' c (Cert.ReferenceIdeal.main_arg3 : DevRef Cert.ReferenceIdeal.τ Cert.ReferenceIdeal.sig)
        = Cert.KernelIdeal.Value.wIn m c := e3
    have hprod : Host.dotGeneral (F := Ideal) (φ₁ := .f32) (φ₂ := .f32) Cert.ReferenceIdeal.dot_S100000x128_S128x128_S100000x128_1_0_0_1_n_n none
        (launchContents m' c (Cert.ReferenceIdeal.main_arg0 : DevRef Cert.ReferenceIdeal.τ Cert.ReferenceIdeal.sig))
        (launchContents m' c (Cert.ReferenceIdeal.main_arg3 : DevRef Cert.ReferenceIdeal.τ Cert.ReferenceIdeal.sig))
        = Cert.KernelIdeal.Value.prod m c := by
      rw [hx', hw']
      funext k
      rw [eq_ix2 k]
      unfold Cert.KernelIdeal.Value.prod
      exact Cert.ReferenceIdeal.HandValue.dot_apply _ _ (k 0) (k 1)
    rw [hprod]
    show Cert.Stages.aggregate (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) _ = _
    rw [e1, e2]
  have hg : after Cert.ReferenceIdeal.HandRun.opsA (launchContents m' c) (Cert.ReferenceIdeal.main_arg4 : DevRef Cert.ReferenceIdeal.τ Cert.ReferenceIdeal.sig)
      = Cert.KernelIdeal.Value.scaleIn m c := hA.2.2.2.2.1.trans e4
  have hb : after Cert.ReferenceIdeal.HandRun.opsA (launchContents m' c) (Cert.ReferenceIdeal.main_arg5 : DevRef Cert.ReferenceIdeal.τ Cert.ReferenceIdeal.sig)
      = Cert.KernelIdeal.Value.shiftIn m c := hA.2.2.2.2.2.trans e5
  rw [hagg, hg, hb]
  exact (Cert.BnAlgebra.kerBN_eq_refBN _ (agg_isReal m hpre c) _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
